-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x4096 : Shape := ⟨2, ![4096, 4096]⟩
abbrev S4096x64 : Shape := ⟨2, ![4096, 64]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg1 : IVec S4096x4096 32) (main_v13 : IVec S_ 1) (main_v15 : IVec S4096x4096 1) (main_c_5 : IVec S_ 32) : IVec S_ 1 :=
  let main_v16 : IVec S4096x4096 32 := broadcastInDim S4096x4096 ![] bcast_S_S4096x4096 main_c_5
  let main_v17 : IVec S4096x4096 1 := cmpi .slt main_arg1 main_v16
  let main_v18 : IVec S4096x4096 1 := andi main_v15 main_v17
  let main_c_6 : IVec S_ 1 := constantI S_ 1 1#1
  let main_v19 : IVec S_ 1 := (fun x v => Host.reduce IntOp.andi x v reducesTo_S4096x4096_S_d0_1 h_S_) main_v18 main_c_6
  let main_v20 : IVec S_ 1 := andi main_v13 main_v19
  main_v20

def fn {F : FTy → Type} [FloatOps F] (main_arg0 : FVec F S2x2048x4096 .f32) (main_arg1 : IVec S4096x4096 32) (main_arg2 : FVec F S4096x64 .f32) (main_arg3 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x64 .f32 := Host.absf main_arg2
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_c_4 : IVec S_ 32 := constantI S_ 32 0#32
  let main_v14 : IVec S4096x4096 32 := broadcastInDim S4096x4096 ![] bcast_S_S4096x4096 main_c_4
  let main_v15 : IVec S4096x4096 1 := cmpi .sge main_arg1 main_v14
  let main_c_5 : IVec S_ 32 := constantI S_ 32 16#32
  fn_part1 (F := F) main_arg1 main_v13 main_v15 main_c_5
-- ==== Kernel.lean ====
abbrev S2x2048x4096 : Shape := ⟨3, ![2, 2048, 4096]⟩
abbrev S4096x4096 : Shape := ⟨2, ![4096, 4096]⟩
abbrev S4096x64 : Shape := ⟨2, ![4096, 64]⟩
abbrev S4096 : Shape := ⟨1, ![4096]⟩
abbrev S64x4096 : Shape := ⟨2, ![64, 4096]⟩
abbrev S1x4096 : Shape := ⟨2, ![1, 4096]⟩
abbrev S1024 : Shape := ⟨1, ![1024]⟩
abbrev S_ : Shape := ⟨0, ![]⟩
abbrev S16 : Shape := ⟨1, ![16]⟩
abbrev S16x1 : Shape := ⟨2, ![16, 1]⟩
abbrev S1x1024 : Shape := ⟨2, ![1, 1024]⟩
abbrev S16x1024 : Shape := ⟨2, ![16, 1024]⟩
abbrev S1024x1024 : Shape := ⟨2, ![1024, 1024]⟩
abbrev S512x1024 : Shape := ⟨2, ![512, 1024]⟩
abbrev S16x512 : Shape := ⟨2, ![16, 512]⟩
abbrev S1x512 : Shape := ⟨2, ![1, 512]⟩
abbrev S1024x512 : Shape := ⟨2, ![1024, 512]⟩

abbrev nBuf : Space → Nat
  | .hbm => 35
  | .vmem => 12
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .i32⟩
  | .hbm, ⟨2, _⟩ => ⟨S4096x64, .f32⟩
  | .hbm, ⟨3, _⟩ => ⟨S4096, .f32⟩
  | .hbm, ⟨4, _⟩ => ⟨S4096x4096, .f32⟩
  | .hbm, ⟨5, _⟩ => ⟨S64x4096, .f32⟩
  | .hbm, ⟨6, _⟩ => ⟨S1x4096, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S16, .i32⟩
  | .hbm, ⟨27, _⟩ => ⟨S16x1, .i32⟩
  | .hbm, ⟨28, _⟩ => ⟨S1x1024, .i32⟩
  | .hbm, ⟨29, _⟩ => ⟨S16x1024, .i32⟩
  | .hbm, ⟨30, _⟩ => ⟨S16x1024, .i32⟩
  | .hbm, ⟨31, _⟩ => ⟨S16x1024, .i1⟩
  | .hbm, ⟨32, _⟩ => ⟨S16x1024, .f32⟩
  | .hbm, ⟨33, _⟩ => ⟨S4096x4096, .f32⟩
  | .hbm, ⟨34, _⟩ => ⟨S2x2048x4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .i32⟩
  | .local _ .vmem, ⟨3, _⟩ => ⟨S512x1024, .i32⟩
  | .local _ .vmem, ⟨4, _⟩ => ⟨S16x512, .f32⟩
  | .local _ .vmem, ⟨5, _⟩ => ⟨S16x512, .f32⟩
  | .local _ .vmem, ⟨6, _⟩ => ⟨S1x512, .f32⟩
  | .local _ .vmem, ⟨7, _⟩ => ⟨S1x512, .f32⟩
  | .local _ .vmem, ⟨8, _⟩ => ⟨S16x1024, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32_30 : BitVec 32 := 3#32
  let v81 : BitVec 1 := Scalar.cmpi .eq arg2 c3_i32_30
  let v82 : BitVec 32 := Scalar.extui v81
  let c0_i32_31 : BitVec 32 := 0#32
  let v83 : BitVec 1 := Scalar.cmpi .ne v82 c0_i32_31
  v83

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S2x2048x4096_S4096x4096 : S2x2048x4096.ShapeCasts S4096x4096
  transposes_S4096x64_S64x4096_1_0 : S4096x64.Transposes [1, 0] S64x4096
  shapeCasts_S4096_S1x4096 : S4096.ShapeCasts S1x4096
  bcast_S_S1024 : S_.BroadcastsInDim S1024 (![] : Fin 0 → Fin S1024.rank)
  bcast_S16_S16x1_0 : S16.BroadcastsInDim S16x1 (![0] : Fin 1 → Fin S16x1.rank)
  bcast_S1024_S1x1024_1 : S1024.BroadcastsInDim S1x1024 (![1] : Fin 1 → Fin S1x1024.rank)
  bcast_S16x1_S16x1024_0_1 : S16x1.BroadcastsInDim S16x1024 (![0, 1] : Fin 2 → Fin S16x1024.rank)
  bcast_S1x1024_S16x1024_0_1 : S1x1024.BroadcastsInDim S16x1024 (![0, 1] : Fin 2 → Fin S16x1024.rank)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S4096x4096_S2x2048x4096 : S4096x4096.ShapeCasts S2x2048x4096
  dot_S16x512_S16x1024_S512x1024_0_0_1_1_n_n_wf : DotDims.WF S16x512 S16x1024 S512x1024 [0] [0] [1] [1] [] []
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .i32 = 32 ∨ (Rect.block (s := S4096x4096) S512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S64x4096.size a
  hwx0_2 : ∀ i : grid0.Coords, EltTy.bits .f32 = 32 ∨ (Rect.block (s := S64x4096) S16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1024.size a ≤ S16x1024.size a
  hwx0_4 : ∀ i : grid0.Coords, EltTy.bits .f32 = 32 ∨ (Rect.block (s := S16x1024) S16x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S4096x4096.size a
  hwx0_5 : ∀ i : grid0.Coords, EltTy.bits .f32 = 32 ∨ (Rect.block (s := S4096x4096) S1024x512.size (cc0_transform_5 i) (hinb0_5 i)).WholeWords (EltTy.packing .f32)

variable [Facts₀]

def dot_S16x512_S16x1024_S512x1024_0_0_1_1_n_n : DotDims S16x512 S16x1024 S512x1024 where
  lhsContracting := [0]
  rhsContracting := [0]
  lhsNonContracting := [1]
  rhsNonContracting := [1]
  lhsBatch := []
  rhsBatch := []
  wf := dot_S16x512_S16x1024_S512x1024_0_0_1_1_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S16x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096x4096 : Shape := ⟨2, ![4096, 4096]⟩
abbrev S4096x64 : Shape := ⟨2, ![4096, 64]⟩
abbrev S4096 : Shape := ⟨1, ![4096]⟩
abbrev S16 : Shape := ⟨1, ![16]⟩
abbrev S_ : Shape := ⟨0, ![]⟩
abbrev S4096x4096x1 : Shape := ⟨3, ![4096, 4096, 1]⟩
abbrev S4096x64x64 : Shape := ⟨3, ![4096, 64, 64]⟩
abbrev S1x1x4096 : Shape := ⟨3, ![1, 1, 4096]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .i32⟩
  | .hbm, ⟨2, _⟩ => ⟨S4096x64, .f32⟩
  | .hbm, ⟨3, _⟩ => ⟨S4096, .f32⟩
  | .hbm, ⟨4, _⟩ => ⟨S16, .f32⟩
  | .hbm, ⟨5, _⟩ => ⟨S_, .i32⟩
  | .hbm, ⟨6, _⟩ => ⟨S4096x4096, .i32⟩
  | .hbm, ⟨7, _⟩ => ⟨S4096x4096, .i1⟩
  | .hbm, ⟨8, _⟩ => ⟨S_, .i32⟩
  | .hbm, ⟨9, _⟩ => ⟨S4096x4096, .i32⟩
  | .hbm, ⟨10, _⟩ => ⟨S4096x4096, .i32⟩
  | .hbm, ⟨11, _⟩ => ⟨S4096x4096, .i32⟩
  | .hbm, ⟨12, _⟩ => ⟨S4096x4096x1, .i32⟩
  | .hbm, ⟨13, _⟩ => ⟨S4096x4096, .f32⟩
  | .hbm, ⟨14, _⟩ => ⟨S4096x64x64, .f32⟩
  | .hbm, ⟨15, _⟩ => ⟨S4096x4096, .f32⟩
  | .hbm, ⟨16, _⟩ => ⟨S4096x4096, .f32⟩
  | .hbm, ⟨17, _⟩ => ⟨S2x2048x4096, .f32⟩
  | .hbm, ⟨18, _⟩ => ⟨S1x1x4096, .f32⟩
  | .hbm, ⟨19, _⟩ => ⟨S2x2048x4096, .f32⟩
  | .hbm, ⟨20, _⟩ => ⟨S2x2048x4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2x2048x4096, .i1⟩
  | .hbm, ⟨25, _⟩ => ⟨S_, .f32⟩
  | .hbm, ⟨26, _⟩ => ⟨S2x2048x4096, .f32⟩
  | .hbm, ⟨27, _⟩ => ⟨S2x2048x4096, .f32⟩
  | .hbm, ⟨28, _⟩ => ⟨S_, .f32⟩
  | .hbm, ⟨29, _⟩ => ⟨S2x2048x4096, .f32⟩
  | .hbm, ⟨30, _⟩ => ⟨S2x2048x4096, .i1⟩
  | .hbm, ⟨31, _⟩ => ⟨S_, .f32⟩
  | .hbm, ⟨32, _⟩ => ⟨S2x2048x4096, .f32⟩
  | .hbm, ⟨33, _⟩ => ⟨S2x2048x4096, .f32⟩
  | .hbm, ⟨34, _⟩ => ⟨S_, .f32⟩
  | .hbm, ⟨35, _⟩ => ⟨S2x2048x4096, .f32⟩
  | .hbm, ⟨36, _⟩ => ⟨S2x2048x4096, .i1⟩
  | .hbm, ⟨37, _⟩ => ⟨S_, .f32⟩
  | .hbm, ⟨38, _⟩ => ⟨S2x2048x4096, .f32⟩
  | .hbm, ⟨39, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_cst_2 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_call0_call0_v0 : Ref sig .tc := ⟨.hbm, 26, rfl⟩
abbrev main_call0_v2 : Ref sig .tc := ⟨.hbm, 27, rfl⟩
abbrev main_call0_cst : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_call1_v0 : Ref sig .tc := ⟨.hbm, 32, rfl⟩
abbrev main_call0_v6 : Ref sig .tc := ⟨.hbm, 33, rfl⟩
abbrev main_call0_cst_0 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_call2_v0 : Ref sig .tc := ⟨.hbm, 38, rfl⟩
abbrev main_v14 : Ref sig .tc := ⟨.hbm, 39, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S4096x64_S4096x64x64_0_1 : S4096x64.BroadcastsInDim S4096x64x64 (![0, 1] : Fin 2 → Fin S4096x64x64.rank)
  shapeCasts_S4096x64x64_S4096x4096 : S4096x64x64.ShapeCasts S4096x4096
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  bcast_S_S2x2048x4096 : S_.BroadcastsInDim S2x2048x4096 (![] : Fin 0 → Fin S2x2048x4096.rank)
  gather_S16_S4096x4096x1_S4096x4096_n_0_n_n_0_2_1_wf : GatherDims.WF S16 S4096x4096x1 S4096x4096 [] [0] [] [0] [] 2 ![1]
  dot_S2x2048x4096_S4096x4096_S2x2048x4096_2_1_01_0_n_n_wf : DotDims.WF S2x2048x4096 S4096x4096 S2x2048x4096 [2] [1] [0, 1] [0] [] []

variable [Facts₀]

def gather_S16_S4096x4096x1_S4096x4096_n_0_n_n_0_2_1 : GatherDims S16 S4096x4096x1 S4096x4096 where
  offsetDims := []
  collapsedSliceDims := [0]
  operandBatchingDims := []
  startIndicesBatchingDims := []
  startIndexMap := [0]
  indexVectorDim := 2
  sliceSizes := ![1]
  wf := gather_S16_S4096x4096x1_S4096x4096_n_0_n_n_0_2_1_wf
def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.Pieces.lean ====
/-
  What one grid point leaves in the accumulator and in the output block, as pure functions of the point's input blocks.

  The body keeps a 1024 × 512 accumulator across the four points that share an output block. The first of the four stores the
  zero block and then adds its tile product; the others add theirs to what the point before left; the last also writes
  the accumulator plus the bias row, infinities replaced, to the output block. Each value is read off the stores the
  body's run ends with: every buffer is covered by one whole-buffer store, whose payload is applied to whole-buffer loads.
-/
import proofs.«430506_j87574383165510_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-- One grid point's update of the accumulator, as a pure function of the point's blocks. -/
def step (x0 : Vec F S1024x1024 .f32) (x1 : Vec F S512x1024 .i32) (x2 : Vec F S16x512 .f32) (x4 : Vec F S16x1024 .f32)
    (acc : Vec F S1024x512 .f32) : Vec F S1024x512 .f32 :=
  k0_pay1 (k0_pay6 x1 (k0_pay4 x1) (k0_pay5 x1) (Scalar.ofBits .f32 0x00000000#32) x2 x4) (k0_pay7 x0) acc

/-- The first point of a run of four: the accumulator is reset to the zero block, then updated. -/
theorem scratch_A (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S16x512 .f32) (harg5 : arg5.IsWhole) (arg6 : Memref sig .tc .vmem S1x512 .f32) (harg6 : arg6.IsWhole) (arg7 : Memref sig .tc .vmem S16x1024 .f32) (harg7 : arg7.IsWhole) (arg8 : Memref sig .tc .vmem S1024x512 .f32) (harg8 : arg8.IsWhole) (arg9 : Memref sig .tc .vmem S1024x512 .f32) (harg9 : arg9.IsWhole) (hc0 : cond0_0 i) (hc1 : ¬cond0_1 i)
    (x0 : Vec F S1024x1024 .f32) (x1 : Vec F S512x1024 .i32) (x2 : Vec F S16x512 .f32) (x3 : Vec F S1x512 .f32) (x4 : Vec F S16x1024 .f32) :
    sout0_A_0 c i arg3 harg3 arg4 harg4 arg5 harg5 arg6 harg6 arg7 harg7 arg8 harg8 arg9 harg9 hc0 hc1 x0 x1 x2 x3 x4 = step x0 x1 x2 x4 (k0_pay3 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x512) hz, View.readCov_unit_zero (S := S1024x512) _ hz]
  unfold step
  simp only [View.readAt_eq_ld, harg3.read_unread, harg4.read_unread, harg5.read_unread, harg6.read_unread, harg7.read_unread, harg9.read_unread,
    View.ld_unit_zero (S := S1024x1024) hz, View.ld_unit_zero (S := S512x1024) hz, View.ld_unit_zero (S := S16x512) hz,
    View.ld_unit_zero (S := S16x1024) hz, View.ld_unit_zero (S := S1024x512) hz, View.ld_unit_zero (S := S1x512) hz,
    View.readCov_unit_zero (S := S1024x512) _ hz]

/-- A middle point: the accumulator the point before left, updated. -/
theorem scratch_B (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S16x512 .f32) (harg5 : arg5.IsWhole) (arg6 : Memref sig .tc .vmem S1x512 .f32) (harg6 : arg6.IsWhole) (arg7 : Memref sig .tc .vmem S16x1024 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : ¬cond0_1 i)
    (x0 : Vec F S1024x1024 .f32) (x1 : Vec F S512x1024 .i32) (x2 : Vec F S16x512 .f32) (x3 : Vec F S1x512 .f32) (x4 : Vec F S16x1024 .f32) (xs0 : Vec F S1024x512 .f32) :
    sout0_B_0 c i arg3 harg3 arg4 harg4 arg5 harg5 arg6 harg6 arg7 harg7 arg8 harg8 arg9 harg9 hc0 hc1 x0 x1 x2 x3 x4 xs0 = step x0 x1 x2 x4 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz]
  unfold step
  simp only [View.readAt_eq_ld, harg3.read_unread, harg4.read_unread, harg5.read_unread, harg6.read_unread, harg7.read_unread, harg9.read_unread,
    View.ld_unit_zero (S := S1024x1024) hz, View.ld_unit_zero (S := S512x1024) hz, View.ld_unit_zero (S := S16x512) hz,
    View.ld_unit_zero (S := S16x1024) hz, View.ld_unit_zero (S := S1024x512) hz, View.ld_unit_zero (S := S1x512) hz,
    View.readCov_unit_zero (S := S1024x512) _ hz]

/-- The last point of a run of four updates the accumulator in the same way, -/
theorem scratch_C (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S16x512 .f32) (harg5 : arg5.IsWhole) (arg6 : Memref sig .tc .vmem S1x512 .f32) (harg6 : arg6.IsWhole) (arg7 : Memref sig .tc .vmem S16x1024 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : cond0_1 i)
    (x0 : Vec F S1024x1024 .f32) (x1 : Vec F S512x1024 .i32) (x2 : Vec F S16x512 .f32) (x3 : Vec F S1x512 .f32) (x4 : Vec F S16x1024 .f32) (xs0 : Vec F S1024x512 .f32) :
    sout0_C_0 c i arg3 harg3 arg4 harg4 arg5 harg5 arg6 harg6 arg7 harg7 arg8 harg8 arg9 harg9 hc0 hc1 x0 x1 x2 x3 x4 xs0 = step x0 x1 x2 x4 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  unfold step
  simp only [View.readAt_eq_ld, harg3.read_unread, harg4.read_unread, harg5.read_unread, harg6.read_unread, harg7.read_unread, harg9.read_unread,
    View.ld_unit_zero (S := S1024x1024) hz, View.ld_unit_zero (S := S512x1024) hz, View.ld_unit_zero (S := S16x512) hz,
    View.ld_unit_zero (S := S16x1024) hz, View.ld_unit_zero (S := S1024x512) hz, View.ld_unit_zero (S := S1x512) hz,
    View.readCov_unit_zero (S := S1024x512) _ hz]

/-- and writes the output block: the updated accumulator plus the bias row, infinities replaced. -/
theorem out_C (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S16x512 .f32) (harg5 : arg5.IsWhole) (arg6 : Memref sig .tc .vmem S1x512 .f32) (harg6 : arg6.IsWhole) (arg7 : Memref sig .tc .vmem S16x1024 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : cond0_1 i)
    (x0 : Vec F S1024x1024 .f32) (x1 : Vec F S512x1024 .i32) (x2 : Vec F S16x512 .f32) (x3 : Vec F S1x512 .f32) (x4 : Vec F S16x1024 .f32) (xs0 : Vec F S1024x512 .f32) :
    out0_C_5 c i arg3 harg3 arg4 harg4 arg5 harg5 arg6 harg6 arg7 harg7 arg8 harg8 arg9 harg9 hc0 hc1 x0 x1 x2 x3 x4 xs0 = k0_pay2 (step x0 x1 x2 x4 xs0) x3 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  unfold step
  simp only [View.readAt_eq_ld, harg3.read_unread, harg4.read_unread, harg5.read_unread, harg6.read_unread, harg7.read_unread, harg9.read_unread,
    View.ld_unit_zero (S := S1024x1024) hz, View.ld_unit_zero (S := S512x1024) hz, View.ld_unit_zero (S := S16x512) hz,
    View.ld_unit_zero (S := S16x1024) hz, View.ld_unit_zero (S := S1024x512) hz, View.ld_unit_zero (S := S1x512) hz,
    View.readCov_unit_zero (S := S1024x512) _ hz]

end Cert.KernelIdeal.Body
end
-- ==== Proof.Spec.lean ====
/-
  The mathematics both programs compute, stated once over the argument arrays and with no program in sight.

  A 4-bit code selects one of sixteen fixed quantile levels; a weight entry is that level times the scale of its
  block of 64 consecutive input columns; the layer is the dense product of the activations with the weight
  (contracting the 4096 input columns), plus a bias per output column, after which an infinite entry is replaced by 0.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The sixteen quantile levels, as f32 words, by code. -/
def word : Fin 16 → BitVec 32 := fun
  | 0 => 0xBF800000#32 | 1 => 0xBF3239B1#32 | 2 => 0xBF066B30#32 | 3 => 0xBECA32A0#32 | 4 => 0xBE91A24D#32 | 5 => 0xBE3D353F#32 | 6 => 0xBDBA7871#32 | 7 => 0x00000000#32
  | 8 => 0x3DA2FAFF#32 | 9 => 0x3E24CAE3#32 | 10 => 0x3E7C04DD#32 | 11 => 0x3EAD033A#32 | 12 => 0x3EE1A4B8#32 | 13 => 0x3F1007AB#32 | 14 => 0x3F2E047C#32 | 15 => 0x3F800000#32
  | _ => 0#32

/-- The level a code selects: the code read as a signed integer, clamped into `[0, 15]`. -/
def level (c : BitVec 32) : EReal := Ideal.ofBits .f32 (word ⟨min c.toInt.toNat 15, by omega⟩)

/-- A code in the range of the sixteen levels. -/
def InRange (c : BitVec 32) : Prop := 0 ≤ c.toInt ∧ c.toInt < 16

/-- Entry `(o, i)` of the dequantized weight: the level of its code times the scale of input block `i / 64`. -/
def weight (codes : (⟨2, ![4096, 4096]⟩ : Shape).Idx → BitVec 32) (am : (⟨2, ![4096, 64]⟩ : Shape).Idx → EReal)
    (o i : Fin 4096) : EReal :=
  level (codes (ix2 o i)) * am (ix2 o ⟨i.val / 64, by have := i.isLt; omega⟩)

/-- An infinite value is replaced by zero (the extended reals have no other non-number). -/
def squash (y : EReal) : EReal := if y = ⊤ then 0 else if y = ⊥ then 0 else y

/-- One output entry: row `(b, s)` of the activations against row `o` of the weight, plus the bias, squashed. -/
def entry (x : (⟨3, ![2, 2048, 4096]⟩ : Shape).Idx → EReal) (codes : (⟨2, ![4096, 4096]⟩ : Shape).Idx → BitVec 32)
    (am : (⟨2, ![4096, 64]⟩ : Shape).Idx → EReal) (bias : (⟨1, ![4096]⟩ : Shape).Idx → EReal)
    (b : Fin 2) (s : Fin 2048) (o : Fin 4096) : EReal :=
  squash ((∑ i : Fin 4096, x (ix3 b s i) * weight codes am o i) + bias (ix1 o))

/-- The whole result array. -/
def G (x : (⟨3, ![2, 2048, 4096]⟩ : Shape).Idx → EReal) (codes : (⟨2, ![4096, 4096]⟩ : Shape).Idx → BitVec 32)
    (am : (⟨2, ![4096, 64]⟩ : Shape).Idx → EReal) (bias : (⟨1, ![4096]⟩ : Shape).Idx → EReal) :
    (⟨3, ![2, 2048, 4096]⟩ : Shape).Idx → EReal :=
  fun j => entry x codes am bias (j 0) (j 1) (j 2)

end Cert.Spec

end
-- ==== Proof.Payload.lean ====
/-
  One grid point's arithmetic over the extended reals, entry by entry.

  The scale tile is a product contracting 16 block rows; the weight tile is the selected level times that scale; the
  accumulator's update adds, at (p, q), the sum over the tile's 1024 columns of activation times weight (a change of
  float format is the identity here, and a product into a zero accumulator is just the sum); the output entry is the
  accumulator plus the bias of its column, after which a test that never fires on an extended real and two tests against
  the infinities leave exactly the specification's replacement of infinities by zero. On a code in [0, 16) the fifteen
  equality tests select the specification's level: sixteen cases, each by computation.
-/
import proofs.«430506_j87574383165510_1_alg».proof.Proof.Pieces
import proofs.«430506_j87574383165510_1_alg».proof.Proof.Spec
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Body

open Cert.KernelIdeal Cert.KernelIdeal.Gen

/-! ## The two matrix products, index by index -/

theorem lhs_scale_0 (i : S512x1024.Idx) (q : dot_S16x512_S16x1024_S512x1024_0_0_1_1_n_n.contr.Idx) :
    (dot_S16x512_S16x1024_S512x1024_0_0_1_1_n_n.lhsIdx i q 0).val = (q ⟨0, by decide⟩).val :=
  dot_S16x512_S16x1024_S512x1024_0_0_1_1_n_n.lhsIdx_val_of_single rfl i q
theorem lhs_scale_1 (i : S512x1024.Idx) (q : dot_S16x512_S16x1024_S512x1024_0_0_1_1_n_n.contr.Idx) :
    (dot_S16x512_S16x1024_S512x1024_0_0_1_1_n_n.lhsIdx i q 1).val = (i 0).val := by
  unfold DotDims.lhsIdx
  rw [dif_neg (show ¬(1 : Fin S16x512.rank) ∈ dot_S16x512_S16x1024_S512x1024_0_0_1_1_n_n.lhsBatch by decide), dif_pos (show (1 : Fin S16x512.rank) ∈ dot_S16x512_S16x1024_S512x1024_0_0_1_1_n_n.lhsNonContracting by decide)]
  rfl
theorem rhs_scale_0 (i : S512x1024.Idx) (q : dot_S16x512_S16x1024_S512x1024_0_0_1_1_n_n.contr.Idx) :
    (dot_S16x512_S16x1024_S512x1024_0_0_1_1_n_n.rhsIdx i q 0).val = (q ⟨0, by decide⟩).val :=
  dot_S16x512_S16x1024_S512x1024_0_0_1_1_n_n.rhsIdx_val_of_single rfl i q
theorem rhs_scale_1 (i : S512x1024.Idx) (q : dot_S16x512_S16x1024_S512x1024_0_0_1_1_n_n.contr.Idx) :
    (dot_S16x512_S16x1024_S512x1024_0_0_1_1_n_n.rhsIdx i q 1).val = (i 1).val := by
  unfold DotDims.rhsIdx
  rw [dif_neg (show ¬(1 : Fin S16x1024.rank) ∈ dot_S16x512_S16x1024_S512x1024_0_0_1_1_n_n.rhsBatch by decide), dif_pos (show (1 : Fin S16x1024.rank) ∈ dot_S16x512_S16x1024_S512x1024_0_0_1_1_n_n.rhsNonContracting by decide)]
  rfl

/-- The scale tile: entry `(q, t)` contracts the 16 block rows of the two operands. -/
theorem scale_apply (a : FVec Ideal S16x512 .f32) (r : FVec Ideal S16x1024 .f32) (q : Fin 512) (t : Fin 1024) :
    (matmul dot_S16x512_S16x1024_S512x1024_0_0_1_1_n_n none a r (constant S512x1024 .f32 0x00000000#32) : FVec Ideal S512x1024 .f32) (ix2 q t)
      = ∑ b : Fin 16, a (ix2 b q) * r (ix2 b t) := by
  simp only [matmul]
  rw [Ideal.matmul_constant_zero_apply, ← Equiv.sum_comp (contrEquiv1 dot_S16x512_S16x1024_S512x1024_0_0_1_1_n_n 16 rfl rfl).symm]
  refine Finset.sum_congr rfl fun k _ => ?_
  have hk := contrEquiv1_symm_val dot_S16x512_S16x1024_S512x1024_0_0_1_1_n_n 16 rfl rfl k
  have el : dot_S16x512_S16x1024_S512x1024_0_0_1_1_n_n.lhsIdx (ix2 q t) ((contrEquiv1 dot_S16x512_S16x1024_S512x1024_0_0_1_1_n_n 16 rfl rfl).symm k) = ix2 k q := funext fun a => Fin.ext (by
    match a with
    | ⟨0, _⟩ => exact (lhs_scale_0 _ _).trans hk
    | ⟨1, _⟩ => exact lhs_scale_1 _ _)
  have er : dot_S16x512_S16x1024_S512x1024_0_0_1_1_n_n.rhsIdx (ix2 q t) ((contrEquiv1 dot_S16x512_S16x1024_S512x1024_0_0_1_1_n_n 16 rfl rfl).symm k) = ix2 k t := funext fun a => Fin.ext (by
    match a with
    | ⟨0, _⟩ => exact (rhs_scale_0 _ _).trans hk
    | ⟨1, _⟩ => exact rhs_scale_1 _ _)
  rw [el, er]

theorem lhs_prod_0 (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem lhs_prod_1 (i : S1024x512.Idx) (q : dot_S1024x1024_S512x1024_S1024x512_1_1_0_0_n_n.contr.Idx) :
    (dot_S1024x1024_S512x1024_S1024x512_1_1_0_0_n_n.lhsIdx i q 1).val = (q ⟨0, by decide⟩).val :=
  dot_S1024x1024_S512x1024_S1024x512_1_1_0_0_n_n.lhsIdx_val_of_single rfl i q
theorem rhs_prod_0 (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem rhs_prod_1 (i : S1024x512.Idx) (q : dot_S1024x1024_S512x1024_S1024x512_1_1_0_0_n_n.contr.Idx) :
    (dot_S1024x1024_S512x1024_S1024x512_1_1_0_0_n_n.rhsIdx i q 1).val = (q ⟨0, by decide⟩).val :=
  dot_S1024x1024_S512x1024_S1024x512_1_1_0_0_n_n.rhsIdx_val_of_single rfl i q

/-- The tile product: entry `(p, q)` contracts the 1024 columns of the activation tile and of the weight tile. -/
theorem prod_apply (a : FVec Ideal S1024x1024 .bf16) (w : FVec Ideal S512x1024 .bf16) (p : Fin 1024) (q : Fin 512) :
    (matmul dot_S1024x1024_S512x1024_S1024x512_1_1_0_0_n_n none a w (constant S1024x512 .f32 0x00000000#32) : FVec Ideal S1024x512 .f32) (ix2 p q)
      = ∑ t : Fin 1024, a (ix2 p t) * w (ix2 q t) := by
  simp only [matmul]
  rw [Ideal.matmul_constant_zero_apply, ← Equiv.sum_comp (contrEquiv1 dot_S1024x1024_S512x1024_S1024x512_1_1_0_0_n_n 1024 rfl rfl).symm]
  refine Finset.sum_congr rfl fun k _ => ?_
  have hk := contrEquiv1_symm_val dot_S1024x1024_S512x1024_S1024x512_1_1_0_0_n_n 1024 rfl rfl k
  have el : dot_S1024x1024_S512x1024_S1024x512_1_1_0_0_n_n.lhsIdx (ix2 p q) ((contrEquiv1 dot_S1024x1024_S512x1024_S1024x512_1_1_0_0_n_n 1024 rfl rfl).symm k) = ix2 p k := funext fun a => Fin.ext (by
    match a with
    | ⟨0, _⟩ => exact lhs_prod_0 _ _
    | ⟨1, _⟩ => exact (lhs_prod_1 _ _).trans hk)
  have er : dot_S1024x1024_S512x1024_S1024x512_1_1_0_0_n_n.rhsIdx (ix2 p q) ((contrEquiv1 dot_S1024x1024_S512x1024_S1024x512_1_1_0_0_n_n 1024 rfl rfl).symm k) = ix2 q k := funext fun a => Fin.ext (by
    match a with
    | ⟨0, _⟩ => exact rhs_prod_0 _ _
    | ⟨1, _⟩ => exact (rhs_prod_1 _ _).trans hk)
  rw [el, er]

/-! ## The weight tile and one accumulation step -/

/-- The level a code selects, as the body computes it: fifteen equality tests in turn, the last level when none holds. -/
def lvl (c : BitVec 32) : EReal :=
  (Scalar.select (IntOp.cmpi .eq c 0#32) (Ideal.ofBits .f32 0xBF800000#32)
    (Scalar.select (IntOp.cmpi .eq c 1#32) (Ideal.ofBits .f32 0xBF3239B1#32)
    (Scalar.select (IntOp.cmpi .eq c 2#32) (Ideal.ofBits .f32 0xBF066B30#32)
    (Scalar.select (IntOp.cmpi .eq c 3#32) (Ideal.ofBits .f32 0xBECA32A0#32)
    (Scalar.select (IntOp.cmpi .eq c 4#32) (Ideal.ofBits .f32 0xBE91A24D#32)
    (Scalar.select (IntOp.cmpi .eq c 5#32) (Ideal.ofBits .f32 0xBE3D353F#32)
    (Scalar.select (IntOp.cmpi .eq c 6#32) (Ideal.ofBits .f32 0xBDBA7871#32)
    (Scalar.select (IntOp.cmpi .eq c 7#32) (Ideal.ofBits .f32 0x00000000#32)
    (Scalar.select (IntOp.cmpi .eq c 8#32) (Ideal.ofBits .f32 0x3DA2FAFF#32)
    (Scalar.select (IntOp.cmpi .eq c 9#32) (Ideal.ofBits .f32 0x3E24CAE3#32)
    (Scalar.select (IntOp.cmpi .eq c 10#32) (Ideal.ofBits .f32 0x3E7C04DD#32)
    (Scalar.select (IntOp.cmpi .eq c 11#32) (Ideal.ofBits .f32 0x3EAD033A#32)
    (Scalar.select (IntOp.cmpi .eq c 12#32) (Ideal.ofBits .f32 0x3EE1A4B8#32)
    (Scalar.select (IntOp.cmpi .eq c 13#32) (Ideal.ofBits .f32 0x3F1007AB#32)
    (Scalar.select (IntOp.cmpi .eq c 14#32) (Ideal.ofBits .f32 0x3F2E047C#32)
    (Ideal.ofBits .f32 0x3F800000#32))))))))))))))))

/-- On a code in range the tests pick the level of the specification. -/
theorem lvl_eq_level (c : BitVec 32) (h : Cert.Spec.InRange c) : lvl c = Cert.Spec.level c := by
  obtain ⟨h0, h1⟩ := h
  have hn : c.toNat < 16 := by
    rw [BitVec.toInt_eq_toNat_cond] at h0 h1
    have := c.isLt
    split at h0 <;> omega
  have hc : c = BitVec.ofNat 32 c.toNat := by simp
  generalize c.toNat = n at hn hc
  subst hc
  interval_cases n <;> rfl

/-- The weight tile at `(q, t)`: the selected level times the scale tile's entry. -/
theorem weight_apply (x1 : Vec Ideal S512x1024 .i32) (x2 : Vec Ideal S16x512 .f32) (x4 : Vec Ideal S16x1024 .f32)
    (q : Fin 512) (t : Fin 1024) :
    k0_pay6 (F := Ideal) x1 (k0_pay4 x1) (k0_pay5 x1) (Scalar.ofBits .f32 0x00000000#32) x2 x4 (ix2 q t)
      = lvl (x1 (ix2 q t)) * ∑ b : Fin 16, x2 (ix2 b q) * x4 (ix2 b t) := by
  have e := scale_apply (shapeCast S16x512 x2 shapeCasts_S16x512_S16x512) (shapeCast S16x1024 x4 shapeCasts_S16x1024_S16x1024) q t
  rw [shapeCast_self x2, shapeCast_self x4] at e
  unfold k0_pay6 k0_pay4 k0_pay5
  rw [shapeCast_self x2, shapeCast_self x4]
  exact congrArg (lvl (x1 (ix2 q t)) * ·) e

/-- One step at `(p, q)`: the accumulator plus the tile product of the activations with the weight tile. -/
theorem step_apply (x0 : Vec Ideal S1024x1024 .f32) (x1 : Vec Ideal S512x1024 .i32) (x2 : Vec Ideal S16x512 .f32)
    (x4 : Vec Ideal S16x1024 .f32) (acc : Vec Ideal S1024x512 .f32) (p : Fin 1024) (q : Fin 512) :
    step (F := Ideal) x0 x1 x2 x4 acc (ix2 p q)
      = acc (ix2 p q) + ∑ t : Fin 1024, x0 (ix2 p t) * (lvl (x1 (ix2 q t)) * ∑ b : Fin 16, x2 (ix2 b q) * x4 (ix2 b t)) := by
  have e := prod_apply (truncf .bf16 (k0_pay7 x0) bitsLt_bf16_f32)
    (k0_pay6 (F := Ideal) x1 (k0_pay4 x1) (k0_pay5 x1) (Scalar.ofBits .f32 0x00000000#32) x2 x4) p q
  have e' : (∑ t : Fin 1024, (truncf .bf16 (k0_pay7 (F := Ideal) x0) bitsLt_bf16_f32) (ix2 p t)
        * k0_pay6 (F := Ideal) x1 (k0_pay4 x1) (k0_pay5 x1) (Scalar.ofBits .f32 0x00000000#32) x2 x4 (ix2 q t))
      = ∑ t : Fin 1024, x0 (ix2 p t) * (lvl (x1 (ix2 q t)) * ∑ b : Fin 16, x2 (ix2 b q) * x4 (ix2 b t)) :=
    Finset.sum_congr rfl fun t _ => by
      rw [weight_apply]
      unfold k0_pay7
      rw [shapeCast_self]
      rfl
  unfold step k0_pay1
  rw [shapeCast_self]
  exact congrArg (acc (ix2 p q) + ·) (e.trans e')

/-! ## The last point's output block -/

/-- What the body does to an entry before storing it: a test that never fires on an extended real, then each infinity replaced by zero. -/
def nanfix (y : EReal) : EReal :=
  let y1 := Scalar.select (Ideal.cmp .one y y) (Ideal.ofBits .f32 0x00000000#32) y
  let y2 := Scalar.select (Ideal.cmp .oeq y1 (Ideal.ofBits .f32 0x7F800000#32)) (Ideal.ofBits .f32 0x00000000#32) y1
  Scalar.select (Ideal.cmp .oeq y2 (Ideal.ofBits .f32 0xFF800000#32)) (Ideal.ofBits .f32 0x00000000#32) y2

theorem ofBits_posInf : Ideal.ofBits .f32 0x7F800000#32 = ⊤ := by simp [Ideal.ofBits, Ideal.ieee]
theorem ofBits_negInf : Ideal.ofBits .f32 0xFF800000#32 = ⊥ := by simp [Ideal.ofBits, Ideal.ieee]

theorem nanfix_eq (y : EReal) : nanfix y = Cert.Spec.squash y := by
  unfold nanfix Cert.Spec.squash
  simp only [Scalar.select, Ideal.cmp, ofBits_posInf, ofBits_negInf, Ideal.ofBits_zero_f32, ne_eq, not_true_eq_false,
    decide_false, BitVec.ofBool_false]
  by_cases h1 : y = ⊤
  · subst h1; simp
  · by_cases h2 : y = ⊥
    · subst h2; simp
    · simp [h1, h2]

/-- The output block at `(p, q)`: the accumulator plus the bias of column `q`, infinities replaced by zero. -/
theorem out_apply (acc : Vec Ideal S1024x512 .f32) (x3 : Vec Ideal S1x512 .f32) (p : Fin 1024) (q : Fin 512) :
    k0_pay2 (F := Ideal) acc x3 (ix2 p q) = Cert.Spec.squash (acc (ix2 p q) + x3 (ix2 0 q)) := by
  have hb : (broadcastTo S1024x512 x3 broadcasts_S1x512_S1024x512 : S1024x512.Idx → EReal) (ix2 p q) = x3 (ix2 0 q) :=
    broadcastTo_apply _ _ _ (ix2 0 q) (fun a => by
      match a with
      | ⟨0, _⟩ => rfl
      | ⟨1, _⟩ => rfl)
  unfold k0_pay2
  rw [shapeCast_self]
  show nanfix (acc (ix2 p q) + (broadcastTo S1024x512 x3 broadcasts_S1x512_S1024x512 : S1024x512.Idx → EReal) (ix2 p q)) = _
  rw [hb, nanfix_eq]

end Cert.KernelIdeal.Body
end
-- ==== Proof.Accum.lean ====
/-
  The accumulator after every grid point, as a running sum.

  The arrays the call reads are addressed through blocks: at point t the activation block is rows 1024·(t/32) … and columns
  1024·(t%4) … of the activation matrix, the code block rows 512·(t/4%8) … and the same columns of the code table, the scale
  block rows 16·(t%4) … and columns 512·(t/4%8) … of the transposed scales, the bias block those columns of the bias row, and
  the block-selection matrix is read whole. So one point's tile product is the 1024 summands numbered 1024·(t%4) … of the
  output entry its tiles address, and by induction on the point the accumulator after point n holds the first
  1024·(n%4 + 1) summands: a point with n%4 = 0 starts from zero, any other adds to what point n − 1 left, which has the
  same row and column tiles.
-/
import proofs.«430506_j87574383165510_1_alg».proof.Proof.Payload

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Body

open Cert.KernelIdeal Cert.KernelIdeal.Gen

variable (m : (ℓ : Loc nD τ sig) → Buf (Elt Ideal) ℓ)

/-! ## The arrays the call reads, and their blocks at a grid point

Grid point `t` of the 4 × 8 × 4 grid has row tile `t / 32`, column tile `t / 4 % 8` and contraction tile `t % 4`. -/

abbrev xarr (c : Dev nD) : Vec Ideal S4096x4096 .f32 := V m c main_v0
abbrev carr (c : Dev nD) : Vec Ideal S4096x4096 .i32 := V m c main_arg1
abbrev aarr (c : Dev nD) : Vec Ideal S64x4096 .f32 := V m c main_v1
abbrev barr (c : Dev nD) : Vec Ideal S1x4096 .f32 := V m c main_v2
abbrev rarr (c : Dev nD) : Vec Ideal S16x1024 .f32 := V m c main_v11
abbrev xblk (c : Dev nD) (t : Fin cfg0.N) : Vec Ideal S1024x1024 .f32 := iblk m c 0 t
abbrev cblk (c : Dev nD) (t : Fin cfg0.N) : Vec Ideal S512x1024 .i32 := iblk m c 1 t
abbrev ablk (c : Dev nD) (t : Fin cfg0.N) : Vec Ideal S16x512 .f32 := iblk m c 2 t
abbrev bblk (c : Dev nD) (t : Fin cfg0.N) : Vec Ideal S1x512 .f32 := iblk m c 3 t
abbrev rblk (c : Dev nD) (t : Fin cfg0.N) : Vec Ideal S16x1024 .f32 := iblk m c 4 t

/-- The printed index maps, decided once over the 128 grid points. -/
theorem idx_facts : ∀ t : Fin cfg0.N,
    win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = t.val % 4 ∧ win0_2.index t (1 : Fin 2) = t.val / 4 % 8
    ∧ win0_3.index t (0 : Fin 2) = 0 ∧ win0_3.index t (1 : Fin 2) = t.val / 4 % 8
    ∧ win0_4.index t (0 : Fin 2) = 0 ∧ win0_4.index t (1 : Fin 2) = 0
    ∧ win0_5.index t (0 : Fin 2) = t.val / 32 ∧ win0_5.index t (1 : Fin 2) = t.val / 4 % 8 :=
  (by decide +kernel : ∀ t : Fin grid0.N, _)

theorem xblk_apply (c : Dev nD) (t : Fin cfg0.N) (a : Fin 1024) (b : Fin 1024) (J : S4096x4096.Idx)
    (h0 : (J 0).val = t.val / 32 * 1024 + a.val) (h1 : (J 1).val = t.val % 4 * 1024 + b.val) :
    xblk m c t (ix2 a b) = xarr m c J := by
  obtain ⟨e00, e01, e10, e11, e20, e21, e30, e31, e40, e41, e50, e51⟩ := idx_facts t
  show iblk m c 0 t (ix2 a b) = _
  unfold iblk
  rw [View.read_apply]
  show V m c main_v0 _ = V m c main_v0 J
  congr 1
  funext d
  apply Fin.ext
  match d with
  | ⟨0, _⟩ => show win0_0.index t (0 : Fin 2) * 1024 + 1 * a.val = (J 0).val; rw [h0, e00]; omega
  | ⟨1, _⟩ => show win0_0.index t (1 : Fin 2) * 1024 + 1 * b.val = (J 1).val; rw [h1, e01]; omega

theorem cblk_apply (c : Dev nD) (t : Fin cfg0.N) (a : Fin 512) (b : Fin 1024) (J : S4096x4096.Idx)
    (h0 : (J 0).val = t.val / 4 % 8 * 512 + a.val) (h1 : (J 1).val = t.val % 4 * 1024 + b.val) :
    cblk m c t (ix2 a b) = carr m c J := by
  obtain ⟨e00, e01, e10, e11, e20, e21, e30, e31, e40, e41, e50, e51⟩ := idx_facts t
  show iblk m c 1 t (ix2 a b) = _
  unfold iblk
  rw [View.read_apply]
  show V m c main_arg1 _ = V m c main_arg1 J
  congr 1
  funext d
  apply Fin.ext
  match d with
  | ⟨0, _⟩ => show win0_1.index t (0 : Fin 2) * 512 + 1 * a.val = (J 0).val; rw [h0, e10]; omega
  | ⟨1, _⟩ => show win0_1.index t (1 : Fin 2) * 1024 + 1 * b.val = (J 1).val; rw [h1, e11]; omega

theorem ablk_apply (c : Dev nD) (t : Fin cfg0.N) (a : Fin 16) (b : Fin 512) (J : S64x4096.Idx)
    (h0 : (J 0).val = t.val % 4 * 16 + a.val) (h1 : (J 1).val = t.val / 4 % 8 * 512 + b.val) :
    ablk m c t (ix2 a b) = aarr m c J := by
  obtain ⟨e00, e01, e10, e11, e20, e21, e30, e31, e40, e41, e50, e51⟩ := idx_facts t
  show iblk m c 2 t (ix2 a b) = _
  unfold iblk
  rw [View.read_apply]
  show V m c main_v1 _ = V m c main_v1 J
  congr 1
  funext d
  apply Fin.ext
  match d with
  | ⟨0, _⟩ => show win0_2.index t (0 : Fin 2) * 16 + 1 * a.val = (J 0).val; rw [h0, e20]; omega
  | ⟨1, _⟩ => show win0_2.index t (1 : Fin 2) * 512 + 1 * b.val = (J 1).val; rw [h1, e21]; omega

theorem bblk_apply (c : Dev nD) (t : Fin cfg0.N) (a : Fin 1) (b : Fin 512) (J : S1x4096.Idx)
    (h0 : (J 0).val = 0 * 1 + a.val) (h1 : (J 1).val = t.val / 4 % 8 * 512 + b.val) :
    bblk m c t (ix2 a b) = barr m c J := by
  obtain ⟨e00, e01, e10, e11, e20, e21, e30, e31, e40, e41, e50, e51⟩ := idx_facts t
  show iblk m c 3 t (ix2 a b) = _
  unfold iblk
  rw [View.read_apply]
  show V m c main_v2 _ = V m c main_v2 J
  congr 1
  funext d
  apply Fin.ext
  match d with
  | ⟨0, _⟩ => show win0_3.index t (0 : Fin 2) * 1 + 1 * a.val = (J 0).val; rw [h0, e30]; omega
  | ⟨1, _⟩ => show win0_3.index t (1 : Fin 2) * 512 + 1 * b.val = (J 1).val; rw [h1, e31]; omega

theorem rblk_apply (c : Dev nD) (t : Fin cfg0.N) (a : Fin 16) (b : Fin 1024) (J : S16x1024.Idx)
    (h0 : (J 0).val = 0 * 16 + a.val) (h1 : (J 1).val = 0 * 1024 + b.val) :
    rblk m c t (ix2 a b) = rarr m c J := by
  obtain ⟨e00, e01, e10, e11, e20, e21, e30, e31, e40, e41, e50, e51⟩ := idx_facts t
  show iblk m c 4 t (ix2 a b) = _
  unfold iblk
  rw [View.read_apply]
  show V m c main_v11 _ = V m c main_v11 J
  congr 1
  funext d
  apply Fin.ext
  match d with
  | ⟨0, _⟩ => show win0_4.index t (0 : Fin 2) * 16 + 1 * a.val = (J 0).val; rw [h0, e40]; omega
  | ⟨1, _⟩ => show win0_4.index t (1 : Fin 2) * 1024 + 1 * b.val = (J 1).val; rw [h1, e41]; omega

/-! ## The running sum -/

/-- Summand `i` of output entry `(r, o)`: the activation times the weight entry, the scale still written as the
    contraction of the scale rows of tile `i / 1024` with the block-selection matrix. -/
def term (c : Dev nD) (r o i : ℕ) : EReal :=
  if h : r < 4096 ∧ o < 4096 ∧ i < 4096 then
    xarr m c (ix2 ⟨r, h.1⟩ ⟨i, h.2.2⟩) * (lvl (carr m c (ix2 ⟨o, h.2.1⟩ ⟨i, h.2.2⟩))
      * ∑ b : Fin 16, aarr m c (ix2 ⟨i / 1024 * 16 + b.val, by have := b.isLt; have := h.2.2; omega⟩ ⟨o, h.2.1⟩)
          * rarr m c (ix2 b ⟨i % 1024, Nat.mod_lt _ (by decide)⟩))
  else 0

/-- One point's tile product is the next 1024 summands. -/
theorem block_sum (c : Dev nD) (t : Fin cfg0.N) (p : Fin 1024) (q : Fin 512) :
    (∑ tt : Fin 1024, xblk m c t (ix2 p tt) * (lvl (cblk m c t (ix2 q tt)) * ∑ b : Fin 16, ablk m c t (ix2 b q) * rblk m c t (ix2 b tt)))
      = ∑ j ∈ Finset.range 1024, term m c (t.val / 32 * 1024 + p.val) (t.val / 4 % 8 * 512 + q.val) (1024 * (t.val % 4) + j) := by
  have hN : t.val < 128 := lt_of_lt_of_eq t.isLt N_0
  rw [← Fin.sum_univ_eq_sum_range (fun j => term m c (t.val / 32 * 1024 + p.val) (t.val / 4 % 8 * 512 + q.val) (1024 * (t.val % 4) + j)) 1024]
  refine Finset.sum_congr rfl fun tt _ => ?_
  have htt := tt.isLt
  have hp := p.isLt
  have hq := q.isLt
  have hcond : t.val / 32 * 1024 + p.val < 4096 ∧ t.val / 4 % 8 * 512 + q.val < 4096 ∧ 1024 * (t.val % 4) + tt.val < 4096 := by omega
  unfold term
  rw [dif_pos hcond]
  have ex := xblk_apply m c t p tt (ix2 ⟨_, hcond.1⟩ ⟨_, hcond.2.2⟩) rfl (by show 1024 * (t.val % 4) + tt.val = _; omega)
  have ec := cblk_apply m c t q tt (ix2 ⟨_, hcond.2.1⟩ ⟨_, hcond.2.2⟩) rfl (by show 1024 * (t.val % 4) + tt.val = _; omega)
  rw [ex, ec]
  refine congrArg _ (congrArg _ (Finset.sum_congr rfl fun b _ => ?_))
  have hb := b.isLt
  have ea := ablk_apply m c t b q (ix2 ⟨(1024 * (t.val % 4) + tt.val) / 1024 * 16 + b.val, by omega⟩ ⟨_, hcond.2.1⟩)
    (by show (1024 * (t.val % 4) + tt.val) / 1024 * 16 + b.val = _; omega) rfl
  have er := rblk_apply m c t b tt (ix2 b ⟨(1024 * (t.val % 4) + tt.val) % 1024, Nat.mod_lt _ (by decide)⟩)
    (by show b.val = _; omega) (by show (1024 * (t.val % 4) + tt.val) % 1024 = _; omega)
  rw [ea, er]

/-- What the accumulator holds after each kind of point, as a step over the point's blocks. -/
theorem acc_first (c : Dev nD) (t : Fin cfg0.N) (h0 : t.val % 4 = 0) (h1 : ¬t.val % 4 = 3) :
    (outsAt0 m c t.val t.isLt).2 = step (xblk m c t) (cblk m c t) (ablk m c t) (rblk m c t) (k0_pay3 (F := Ideal)) := by
  rw [outsAt0_A m c t h0 h1]
  dsimp only
  exact scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

theorem acc_middle (c : Dev nD) (t : Fin cfg0.N) (h0 : ¬t.val % 4 = 0) (h1 : ¬t.val % 4 = 3) :
    (outsAt0 m c t.val t.isLt).2 = step (xblk m c t) (cblk m c t) (ablk m c t) (rblk m c t)
      (outsAt0 m c (t.val - 1) (Nat.lt_of_le_of_lt (Nat.sub_le _ _) t.isLt)).2 := by
  rw [outsAt0_B m c t h0 h1]
  dsimp only
  exact scratch_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2

theorem acc_last (c : Dev nD) (t : Fin cfg0.N) (h0 : ¬t.val % 4 = 0) (h1 : t.val % 4 = 3) :
    (outsAt0 m c t.val t.isLt).2 = step (xblk m c t) (cblk m c t) (ablk m c t) (rblk m c t)
      (outsAt0 m c (t.val - 1) (Nat.lt_of_le_of_lt (Nat.sub_le _ _) t.isLt)).2 := by
  rw [outsAt0_C m c t h0 h1]
  dsimp only
  exact scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

/-- and the output block the last point of a run of four leaves. -/
theorem out_last (c : Dev nD) (t : Fin cfg0.N) (h0 : ¬t.val % 4 = 0) (h1 : t.val % 4 = 3) :
    (outsAt0 m c t.val t.isLt).1 = k0_pay2 (step (xblk m c t) (cblk m c t) (ablk m c t) (rblk m c t)
      (outsAt0 m c (t.val - 1) (Nat.lt_of_le_of_lt (Nat.sub_le _ _) t.isLt)).2) (bblk m c t) := by
  rw [outsAt0_C m c t h0 h1]
  dsimp only
  exact out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

theorem zero_apply (j : S1024x512.Idx) : (k0_pay3 (F := Ideal)) j = 0 := by
  unfold k0_pay3
  rw [shapeCast_self]
  exact Ideal.ofBits_zero_f32

/-- THE INVARIANT: after point `n` the accumulator entry `(p, q)` is the sum of the first `1024 · (n % 4 + 1)` summands of
    the output entry the point's tiles address — by induction on the point. -/
theorem acc_eq (c : Dev nD) : ∀ (n : ℕ) (hn : n < cfg0.N) (p : Fin 1024) (q : Fin 512),
    (outsAt0 m c n hn).2 (ix2 p q)
      = ∑ i ∈ Finset.range (1024 * (n % 4 + 1)), term m c (n / 32 * 1024 + p.val) (n / 4 % 8 * 512 + q.val) i := by
  intro n
  induction n with
  | zero =>
    intro hn p q
    have e := acc_first m c ⟨0, hn⟩ rfl (by show ¬0 % 4 = 3; decide)
    rw [show (outsAt0 m c 0 hn).2 = _ from e, step_apply, zero_apply, zero_add, block_sum]
    refine Finset.sum_congr rfl fun j _ => ?_
    show term m c _ _ (1024 * (0 % 4) + j) = term m c _ _ j
    congr 1
    omega
  | succ n ih =>
    intro hn p q
    have hN : n + 1 < 128 := lt_of_lt_of_eq hn N_0
    by_cases h0 : (n + 1) % 4 = 0
    · have e := acc_first m c ⟨n + 1, hn⟩ h0 (by show ¬(n + 1) % 4 = 3; omega)
      rw [show (outsAt0 m c (n + 1) hn).2 = _ from e, step_apply, zero_apply, zero_add, block_sum]
      show (∑ j ∈ Finset.range 1024, term m c ((n + 1) / 32 * 1024 + p.val) ((n + 1) / 4 % 8 * 512 + q.val) (1024 * ((n + 1) % 4) + j)) = _
      rw [h0]
      refine Finset.sum_congr rfl fun j _ => ?_
      congr 1
      omega
    · have e : (outsAt0 m c (n + 1) hn).2 = step (xblk m c ⟨n + 1, hn⟩) (cblk m c ⟨n + 1, hn⟩) (ablk m c ⟨n + 1, hn⟩) (rblk m c ⟨n + 1, hn⟩)
          (outsAt0 m c n (Nat.lt_of_succ_lt hn)).2 := by
        by_cases h1 : (n + 1) % 4 = 3
        · exact acc_last m c ⟨n + 1, hn⟩ h0 h1
        · exact acc_middle m c ⟨n + 1, hn⟩ h0 h1
      rw [e, step_apply, ih (Nat.lt_of_succ_lt hn) p q, block_sum]
      show (∑ i ∈ Finset.range (1024 * (n % 4 + 1)), term m c (n / 32 * 1024 + p.val) (n / 4 % 8 * 512 + q.val) i)
          + (∑ j ∈ Finset.range 1024, term m c ((n + 1) / 32 * 1024 + p.val) ((n + 1) / 4 % 8 * 512 + q.val) (1024 * ((n + 1) % 4) + j)) = _
      have a1 : (n + 1) / 32 = n / 32 := by omega
      have a2 : (n + 1) / 4 % 8 = n / 4 % 8 := by omega
      have a3 : 1024 * ((n + 1) % 4 + 1) = 1024 * (n % 4 + 1) + 1024 := by omega
      have a4 : 1024 * ((n + 1) % 4) = 1024 * (n % 4 + 1) := by omega
      rw [a1, a2, a3, a4, Finset.sum_range_add]

end Cert.KernelIdeal.Body
end
-- ==== Proof.HostPre.lean ====
/-
  What the host operations before the kernel call leave in the four arrays they write and its windows read.

  The activations are read through a reshape that merges the two leading axes (row `r` of the matrix is row
  `(r / 2048, r % 2048)` of the rank-3 array: the same row-major position); the block scales are read through a
  transpose (entry `(b, o)` is entry `(o, b)`); the bias is read through a reshape that adds a unit axis in front.
  The fourth array is computed from no argument: positions `t < 1024` are floor-divided by 64, compared with the row
  number `b < 16`, and the one-bit answer is converted to a real, so entry `(b, t)` is `1` when `t / 64 = b` and `0` otherwise.
  Each fact is first stated for an arbitrary array of the operand's shape and then instantiated at the launch contents.
-/
import proofs.«430506_j87574383165510_1_alg».proof.Defs
import proofs.«430506_j87574383165510_1_alg».proof.Proof.Gen.KernelIdeal.Frame
import Idealize.ShloMosaic.Lib.StableHlo.Run
import Idealize.ShloMosaic.Lib.ValueIdx
import Idealize.ShloMosaic.Lib.Pipeline.Value

noncomputable section
open Idealize.ShloMosaic Idealize.ShloMosaic.TcCoe Idealize.SL.Sem Idealize.ShloMosaic.ValueIdx

namespace Cert.KernelIdeal.HostPre
open Cert.KernelIdeal Cert.KernelIdeal.Gen

/-! ## The three layout operations read at an index -/

/-- Merging the two leading axes keeps the row-major position: `r * 4096 + i = ((r / 2048) * 2048 + r % 2048) * 4096 + i`. -/
theorem reshape_x_apply (x : S2x2048x4096.Idx → EReal) (r i : Fin 4096) :
    shapeCast S4096x4096 x shapeCasts_S2x2048x4096_S4096x4096 (ix2 r i)
      = x (ix3 ⟨r.val / 2048, by have := r.isLt; omega⟩ ⟨r.val % 2048, by omega⟩ i) := by
  refine shapeCast_apply x _ (ix2 r i) _ ?_
  rw [Shape.rowMajor_val_three, Shape.rowMajor_val_two]
  show (r.val / 2048 * 2048 + r.val % 2048) * 4096 + i.val = r.val * 4096 + i.val
  omega

/-- The transpose swaps the two coordinates. -/
theorem transpose_am_apply (a : S4096x64.Idx → EReal) (b : Fin 64) (o : Fin 4096) :
    transpose S64x4096 [1, 0] a transposes_S4096x64_S64x4096_1_0 (ix2 b o) = a (ix2 o b) :=
  transpose_apply [1, 0] a _ (ix2 b o) (ix2 o b) fun d => match d with | ⟨0, _⟩ => rfl | ⟨1, _⟩ => rfl

/-- A unit axis in front does not move the row-major position: `z * 4096 + o = o` for `z < 1`. -/
theorem reshape_bias_apply (v : S4096.Idx → EReal) (z : Fin 1) (o : Fin 4096) :
    shapeCast S1x4096 v shapeCasts_S4096_S1x4096 (ix2 z o) = v (ix1 o) := by
  refine shapeCast_apply v _ (ix2 z o) _ ?_
  rw [Shape.rowMajor_val_one, Shape.rowMajor_val_two]
  show o.val = z.val * 4096 + o.val
  have := z.isLt
  omega

/-! ## The arrays after the host operations -/

variable (m : (ℓ : Loc nD τ sig) → Buf (Elt Ideal) ℓ)

/-- The activations' matrix is the reshape of the first argument. -/
theorem e_v0 (c : Dev nD) :
    (V m c main_v0 : S4096x4096.Idx → EReal)
      = shapeCast S4096x4096 (m ((c : Thread nD τ).loc main_arg0) : S2x2048x4096.Idx → EReal)
          shapeCasts_S2x2048x4096_S4096x4096 := by
  dsimp only [Gen.V, Gen.V0]
  simp only [Gen.hostOps0, Gen.hostOps0_1, Gen.hostOps0_2, List.flatten_cons, List.flatten_nil, List.append_nil,
    List.cons_append, List.nil_append]
  after_results
  rfl

/-- The scales' matrix is the transpose of the third argument. -/
theorem e_v1 (c : Dev nD) :
    (V m c main_v1 : S64x4096.Idx → EReal)
      = transpose S64x4096 [1, 0] (m ((c : Thread nD τ).loc main_arg2) : S4096x64.Idx → EReal)
          transposes_S4096x64_S64x4096_1_0 := by
  dsimp only [Gen.V, Gen.V0]
  simp only [Gen.hostOps0, Gen.hostOps0_1, Gen.hostOps0_2, List.flatten_cons, List.flatten_nil, List.append_nil,
    List.cons_append, List.nil_append]
  after_results

/-- The bias row is the reshape of the fourth argument. -/
theorem e_v2 (c : Dev nD) :
    (V m c main_v2 : S1x4096.Idx → EReal)
      = shapeCast S1x4096 (m ((c : Thread nD τ).loc main_arg3) : S4096.Idx → EReal)
          shapeCasts_S4096_S1x4096 := by
  dsimp only [Gen.V, Gen.V0]
  simp only [Gen.hostOps0, Gen.hostOps0_1, Gen.hostOps0_2, List.flatten_cons, List.flatten_nil, List.append_nil,
    List.cons_append, List.nil_append]
  after_results
  rfl

theorem V_x (c : Dev nD) (r i : Fin 4096) :
    (V m c main_v0 : S4096x4096.Idx → EReal) (ix2 r i)
      = (m ((c : Thread nD τ).loc main_arg0) : S2x2048x4096.Idx → EReal)
          (ix3 ⟨r.val / 2048, by have := r.isLt; omega⟩ ⟨r.val % 2048, by omega⟩ i) := by
  rw [e_v0]
  exact reshape_x_apply _ r i

theorem V_am (c : Dev nD) (b : Fin 64) (o : Fin 4096) :
    (V m c main_v1 : S64x4096.Idx → EReal) (ix2 b o)
      = (m ((c : Thread nD τ).loc main_arg2) : S4096x64.Idx → EReal) (ix2 o b) := by
  rw [e_v1]
  exact transpose_am_apply _ b o

theorem V_bias (c : Dev nD) (z : Fin 1) (o : Fin 4096) :
    (V m c main_v2 : S1x4096.Idx → EReal) (ix2 z o)
      = (m ((c : Thread nD τ).loc main_arg3) : S4096.Idx → EReal) (ix1 o) := by
  rw [e_v2]
  exact reshape_bias_apply _ z o

/-! ## The one-hot matrix of block membership -/

/-- The floor-division function's result from the position array `p` and the divisor scalar `d`: the truncated
    quotient, lowered by one where the signs differ and the remainder is not zero. -/
def floorDivOf (p : IVec S1024 32) (d : IVec S_ 32) : IVec S1024 32 :=
  select
    (andi (cmpi .ne (signi p) (broadcastInDim S1024 ![] bcast_S_S1024 (signi d)))
          (cmpi .ne (Host.remsi p (broadcastInDim S1024 ![] bcast_S_S1024 d))
                    (broadcastInDim S1024 ![] bcast_S_S1024 (constantI S_ 32 0#32))))
    (subi (Host.divsi p (broadcastInDim S1024 ![] bcast_S_S1024 d))
          (broadcastInDim S1024 ![] bcast_S_S1024 (constantI S_ 32 1#32)))
    (Host.divsi p (broadcastInDim S1024 ![] bcast_S_S1024 d))

/-- The one-hot matrix built from an array `w` of block numbers: entry `(b, t)` compares `b` with `w t`. -/
def oneHotOf (w : IVec S1024 32) : FVec Ideal S16x1024 .f32 :=
  uitofp .f32 (cmpi .eq
    (broadcastInDim S16x1024 ![0, 1] bcast_S16x1_S16x1024_0_1 (broadcastInDim S16x1 ![0] bcast_S16_S16x1_0 (iotaInDim S16 32 0)))
    (broadcastInDim S16x1024 ![0, 1] bcast_S1x1024_S16x1024_0_1 (broadcastInDim S1x1024 ![1] bcast_S1024_S1x1024_1 w)))

/-- The sign word of a 32-bit integer. -/
def sgn (x : BitVec 32) : BitVec 32 := if x = 0 then 0 else if x.msb then -1 else 1

/-- Floor division by 64 on one word: the truncated quotient, lowered by one when the signs differ and the
    remainder is not zero. -/
def fdiv (x : BitVec 32) : BitVec 32 :=
  Scalar.select
    (IntOp.andi (IntOp.cmpi .ne (sgn x) (sgn 64#32)) (IntOp.cmpi .ne (IntOp.remsi .host x 64#32) 0#32))
    (IntOp.subi (IntOp.divsi .host x 64#32) 1#32)
    (IntOp.divsi .host x 64#32)

/-- On the positions `0 ≤ t < 1024` the correction never fires (the remainder is zero at `t = 0` and the signs agree
    for `t > 0`), so the chain is plain division: checked position by position on the words. -/
theorem fdiv_spec : ∀ t : Fin 1024, fdiv (BitVec.ofNat 32 t.val) = BitVec.ofNat 32 (t.val / 64) := by
  decide +kernel

/-- Two numbers below `2 ^ 32` have equal words exactly when they are equal; the one-bit answer read as a real. -/
theorem cmp_word (a b : Nat) (ha : a < 2 ^ 32) (hb : b < 2 ^ 32) :
    ((((IntOp.cmpi .eq (BitVec.ofNat 32 a) (BitVec.ofNat 32 b)).toNat : ℕ) : ℝ) : EReal) = if b = a then 1 else 0 := by
  unfold IntOp.cmpi
  by_cases h : b = a
  · subst h
    simp
  · have hne : (BitVec.ofNat 32 a == BitVec.ofNat 32 b) = false := by
      rw [beq_eq_false_iff_ne]
      intro h'
      have h2 := congrArg BitVec.toNat h'
      simp only [BitVec.toNat_ofNat] at h2
      omega
    simp [hne, h]

/-- The floor-division array at position `t` is the word of `t / 64`. -/
theorem floorDivOf_apply (t : Fin 1024) :
    floorDivOf (iotaInDim S1024 32 0) (constantI S_ 32 64#32) (ix1 t) = BitVec.ofNat 32 (t.val / 64) := by
  show fdiv (BitVec.ofNat 32 t.val) = _
  exact fdiv_spec t

/-- The row index broadcast over the matrix reads the row number. -/
theorem rows_apply (b : Fin 16) (t : Fin 1024) :
    broadcastInDim S16x1024 ![0, 1] bcast_S16x1_S16x1024_0_1
        (broadcastInDim S16x1 ![0] bcast_S16_S16x1_0 (iotaInDim S16 32 0)) (ix2 b t) = BitVec.ofNat 32 b.val := by
  refine (broadcastInDim_apply ![0, 1] bcast_S16x1_S16x1024_0_1 _ (ix2 b t) (ix2 b (0 : Fin 1))
    fun a => match a with | ⟨0, _⟩ => rfl | ⟨1, _⟩ => rfl).trans ?_
  refine (broadcastInDim_apply ![0] bcast_S16_S16x1_0 _ (ix2 b (0 : Fin 1)) (ix1 b)
    fun a => match a with | ⟨0, _⟩ => rfl).trans ?_
  rfl

/-- An array over the columns broadcast over the matrix reads its entry at the column. -/
theorem cols_apply (w : IVec S1024 32) (b : Fin 16) (t : Fin 1024) :
    broadcastInDim S16x1024 ![0, 1] bcast_S1x1024_S16x1024_0_1
        (broadcastInDim S1x1024 ![1] bcast_S1024_S1x1024_1 w) (ix2 b t) = w (ix1 t) := by
  refine (broadcastInDim_apply ![0, 1] bcast_S1x1024_S16x1024_0_1 _ (ix2 b t) (ix2 (0 : Fin 1) t)
    fun a => match a with | ⟨0, _⟩ => rfl | ⟨1, _⟩ => rfl).trans ?_
  exact broadcastInDim_apply ![1] bcast_S1024_S1x1024_1 _ (ix2 (0 : Fin 1) t) (ix1 t)
    fun a => match a with | ⟨0, _⟩ => rfl

/-- Entry `(b, t)` of the one-hot builder: the comparison of the word of `b` with `w t`, read as a real. -/
theorem oneHotOf_apply (w : IVec S1024 32) (b : Fin 16) (t : Fin 1024) :
    (oneHotOf w : S16x1024.Idx → EReal) (ix2 b t)
      = ((((IntOp.cmpi .eq (BitVec.ofNat 32 b.val) (w (ix1 t))).toNat : ℕ) : ℝ) : EReal) := by
  rw [← rows_apply b t, ← cols_apply w b t]
  rfl

/-- The fourth array is the one-hot builder at the floor-division of the positions by the constant 64. -/
theorem e_v11 (c : Dev nD) :
    (V m c main_v11 : S16x1024.Idx → EReal) = oneHotOf (floorDivOf (iotaInDim S1024 32 0) (constantI S_ 32 64#32)) := by
  dsimp only [Gen.V, Gen.V0]
  simp only [Gen.hostOps0, Gen.hostOps0_1, Gen.hostOps0_2, List.flatten_cons, List.flatten_nil, List.append_nil,
    List.cons_append, List.nil_append]
  after_results_simp
  rfl

theorem V_onehot (c : Dev nD) (b : Fin 16) (t : Fin 1024) :
    (V m c main_v11 : S16x1024.Idx → EReal) (ix2 b t) = if t.val / 64 = b.val then (1 : EReal) else 0 := by
  rw [e_v11, oneHotOf_apply, floorDivOf_apply]
  exact cmp_word b.val (t.val / 64) (by have := b.isLt; omega) (by have := t.isLt; omega)

end Cert.KernelIdeal.HostPre
end
-- ==== Proof.Final.lean ====
/-
  The matrix the call leaves.

  A point with t%4 = 3 holds all 4096 summands in its accumulator and writes back, as block (t/32, t/4%8) of the
  4096 × 4096 result, their sum plus the bias, infinities replaced; the other points write nothing back. Every entry
  (r, o) lies in the block of the point 32·(r/1024) + 4·(o/512) + 3, so the written blocks cover the matrix and after the
  run it is one function of the arrays the call read.
-/
import proofs.«430506_j87574383165510_1_alg».proof.Proof.Accum
import proofs.«430506_j87574383165510_1_alg».proof.Proof.HostPre

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Body

open Cert.KernelIdeal Cert.KernelIdeal.Gen

variable (m : (ℓ : Loc nD τ sig) → Buf (Elt Ideal) ℓ)

/-! ## The matrix the call leaves -/

/-- Entry `(r, o)` of the call's result: all 4096 summands, plus the bias of column `o`, infinities replaced. -/
def out2 (c : Dev nD) : Vec Ideal S4096x4096 .f32 := fun J =>
  Cert.Spec.squash ((∑ i ∈ Finset.range 4096, term m c (J 0).val (J 1).val i)
    + barr m c (ix2 (0 : Fin 1) (⟨(J 1).val, (J 1).isLt⟩ : Fin 4096)))

/-- The last point of each run of four writes back its block of that matrix. -/
theorem flushed_eq (c : Dev nD) (t : Fin cfg0.N) (hf : (cfg0.win 5).flush t = true) :
    (dats m 0 c).flushed 5 t = ((cfg0.win 5).blk t).view.read (Elt Ideal) (out2 m c) := by
  have h1 : t.val % 4 = 3 := (flush0_5 t).mp hf
  have h0 : ¬t.val % 4 = 0 := by omega
  have hN : t.val < 128 := lt_of_lt_of_eq t.isLt N_0
  obtain ⟨e00, e01, e10, e11, e20, e21, e30, e31, e40, e41, e50, e51⟩ := idx_facts t
  show (cfg0.win 5).cut (grid0.coords t) ((dats m 0 c).after 5 t) = _
  rw [after0_5, out_last m c t h0 h1, ← acc_last m c t h0 h1]
  funext j
  obtain ⟨p, q, rfl⟩ : ∃ (p : Fin 1024) (q : Fin 512), j = ix2 p q := ⟨j 0, j 1, eq_ix2 j⟩
  rw [View.read_apply]
  show k0_pay2 (outsAt0 m c t.val t.isLt).2 (bblk m c t) (ix2 p q) = out2 m c (((cfg0.win 5).blk t).view.emb (ix2 p q))
  have hp := p.isLt
  have hq := q.isLt
  have hE0 : ((((cfg0.win 5).blk t).view.emb (ix2 p q)) 0).val = t.val / 32 * 1024 + p.val := by
    show win0_5.index t (0 : Fin 2) * 1024 + 1 * p.val = _
    rw [e50]; omega
  have hE1 : ((((cfg0.win 5).blk t).view.emb (ix2 p q)) 1).val = t.val / 4 % 8 * 512 + q.val := by
    show win0_5.index t (1 : Fin 2) * 512 + 1 * q.val = _
    rw [e51]; omega
  have hsum : (∑ i ∈ Finset.range (1024 * (t.val % 4 + 1)), term m c (t.val / 32 * 1024 + p.val) (t.val / 4 % 8 * 512 + q.val) i)
      = ∑ i ∈ Finset.range 4096, term m c ((((cfg0.win 5).blk t).view.emb (ix2 p q)) 0).val ((((cfg0.win 5).blk t).view.emb (ix2 p q)) 1).val i := by
    rw [h1, hE0, hE1]
  rw [out_apply, acc_eq m c t.val t.isLt p q, hsum]
  unfold out2
  rw [bblk_apply m c t 0 q (ix2 (0 : Fin 1) (⟨((((cfg0.win 5).blk t).view.emb (ix2 p q)) 1).val, ((((cfg0.win 5).blk t).view.emb (ix2 p q)) 1).isLt⟩ : Fin 4096))
    (by show (0 : ℕ) = 0 * 1 + 0; rfl) (by show ((((cfg0.win 5).blk t).view.emb (ix2 p q)) 1).val = _; rw [hE1])]

/-- An index of the matrix lies in point `t`'s block iff each coordinate lies in the block's range. -/
theorem mem_blk (t : Fin cfg0.N) (i : S4096x4096.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v12).slice (win0_5.rect t)).set ↔ _
  rw [View.set_slice_whole, Rect.mem_set_unit]
  exact Iff.rfl

/-- The 32 written blocks tile the matrix, so after the run it IS `out2`. -/
theorem final (c : Dev nD) : (dats m 0 c).arrAt 5 cfg0.N = out2 m c :=
  (dats m 0 c).arrAt_eq_of_cover 5 (out2 m c) (flushed_eq m c) fun i => by
    have h0 : (i 0).val < 4096 := (i 0).isLt
    have h1 : (i 1).val < 4096 := (i 1).isLt
    have hN : cfg0.N = 128 := N_0
    have ht : (i 0).val / 1024 * 32 + (i 1).val / 512 * 4 + 3 < cfg0.N := by rw [hN]; omega
    obtain ⟨-, -, -, -, -, -, -, -, -, -, e50, e51⟩ := idx_facts ⟨(i 0).val / 1024 * 32 + (i 1).val / 512 * 4 + 3, ht⟩
    refine ⟨⟨(i 0).val / 1024 * 32 + (i 1).val / 512 * 4 + 3, ht⟩, (flush0_5 _).mpr (by show ((i 0).val / 1024 * 32 + (i 1).val / 512 * 4 + 3) % 4 = 3; omega), ?_⟩
    rw [mem_blk]
    intro a
    match a with
    | ⟨0, _⟩ =>
      show win0_5.index _ (0 : Fin 2) * 1024 ≤ (i 0).val ∧ (i 0).val < win0_5.index _ (0 : Fin 2) * 1024 + 1024
      rw [e50]; dsimp only; omega
    | ⟨1, _⟩ =>
      show win0_5.index _ (1 : Fin 2) * 512 ≤ (i 1).val ∧ (i 1).val < win0_5.index _ (1 : Fin 2) * 512 + 512
      rw [e51]; dsimp only; omega

end Cert.KernelIdeal.Body
end
-- ==== Proof.KernelRun.lean ====
/-
  The kernel program's run, read as the specification.

  After the call one host operation re-lays the 4096 × 4096 matrix as [2, 2048, 4096] (row 2048·b + s becomes (b, s)).
  Reading the host operations before the call — the activations merged to a matrix, the scales transposed, the bias
  given a unit axis, the zero-one matrix with a one at (b, t) exactly when t / 64 = b — turns each summand into
  activation × (level × scale of block i / 64): contracting the 16 scale rows of a tile against a column of the zero-one
  matrix keeps the one row 16·(i/1024) + (i%1024)/64 = i/64 (a product with zero is zero and with one is the factor, for
  every extended real), and on a code in [0, 16) the tests' level is the specification's.
-/
import proofs.«430506_j87574383165510_1_alg».proof.Proof.Final
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Body

open Cert.KernelIdeal Cert.KernelIdeal.Gen

variable (m : (ℓ : Loc nD τ sig) → Buf (Elt Ideal) ℓ) (ρ : Dev nD → PrngReg)

/-! ## The program's result -/

/-- The result array: the matrix re-laid as [2, 2048, 4096], row `2048 · b + s` becoming `(b, s)`. -/
def out3 (c : Dev nD) : Vec Ideal S2x2048x4096 .f32 :=
  shapeCast S2x2048x4096 (out2 m c) shapeCasts_S4096x4096_S2x2048x4096

/-- The one host operation after the call re-lays the matrix the call left. -/
theorem tail_eq (c : Dev nD) :
    Pipeline.afterTail₀ cfgs (dats m) 0 (V0 m) [hostOps1] c main_v13 = out3 m c := by
  unfold Pipeline.afterTail₀
  show StableHlo.after hostOps1 _ (Proc.devRef .tc main_v13) = _
  after_results
  exact congrArg (fun A => shapeCast S2x2048x4096 A shapeCasts_S4096x4096_S2x2048x4096)
    ((Pipeline.withArrays_arr spec0 launch0.win.arr_inj c _ _ 5).trans (final m c))

/-- THE KERNEL PROGRAM'S RUN, read: it ends with the result array at `out3` and its four arguments unchanged. -/
theorem run : θ_run defs (onTc (τ := τ) (main (F := Ideal))) ⟨m, fun _ => 0, ρ⟩ fun r => ∀ c : Dev nD,
      r.2.mem ((c.tc : Thread nD τ).loc main_v13) = out3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v13 (Pipeline.mem_restRefs_of main_v13 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

/-! ## The result is the specification's -/

/-- The four argument arrays as launched, at their literal types. -/
abbrev argX (c : Dev nD) : Vec Ideal S2x2048x4096 .f32 := m ((c.tc : Thread nD τ).loc main_arg0)
abbrev argC (c : Dev nD) : Vec Ideal S4096x4096 .i32 := m ((c.tc : Thread nD τ).loc main_arg1)
abbrev argA (c : Dev nD) : Vec Ideal S4096x64 .f32 := m ((c.tc : Thread nD τ).loc main_arg2)
abbrev argB (c : Dev nD) : Vec Ideal S4096 .f32 := m ((c.tc : Thread nD τ).loc main_arg3)

/-- A summand, with the block-selection matrix and the host re-layouts read: the activation times the weight entry. -/
theorem term_eq (c : Dev nD) (hc : ∀ J, Cert.Spec.InRange (argC m c J))
    (b : Fin 2) (s : Fin 2048) (o i : Fin 4096) :
    term m c (b.val * 2048 + s.val) o.val i.val
      = argX m c (ix3 b s i) * Cert.Spec.weight (argC m c) (argA m c) o i := by
  have hb := b.isLt
  have hs := s.isLt
  have ho := o.isLt
  have hi := i.isLt
  have hcond : b.val * 2048 + s.val < 4096 ∧ o.val < 4096 ∧ i.val < 4096 := by omega
  unfold term
  rw [dif_pos hcond]
  have ex : xarr m c (ix2 ⟨b.val * 2048 + s.val, hcond.1⟩ ⟨i.val, hcond.2.2⟩) = argX m c (ix3 b s i) := by
    show V m c main_v0 (ix2 _ _) = _
    rw [HostPre.V_x m c ⟨b.val * 2048 + s.val, hcond.1⟩ ⟨i.val, hcond.2.2⟩]
    refine congrArg _ ?_
    funext d
    apply Fin.ext
    match d with
    | ⟨0, _⟩ => show (b.val * 2048 + s.val) / 2048 = b.val; omega
    | ⟨1, _⟩ => show (b.val * 2048 + s.val) % 2048 = s.val; omega
    | ⟨2, _⟩ => rfl
  have ec : lvl (carr m c (ix2 ⟨o.val, hcond.2.1⟩ ⟨i.val, hcond.2.2⟩)) = Cert.Spec.level (argC m c (ix2 o i)) := by
    show lvl (V m c main_arg1 (ix2 o i)) = _
    rw [V_main_arg1 m c]
    exact lvl_eq_level _ (hc _)
  have es : (∑ bb : Fin 16, aarr m c (ix2 ⟨i.val / 1024 * 16 + bb.val, by have := bb.isLt; omega⟩ ⟨o.val, hcond.2.1⟩)
        * rarr m c (ix2 bb ⟨i.val % 1024, Nat.mod_lt _ (by decide)⟩))
      = argA m c (ix2 o ⟨i.val / 64, by omega⟩) := by
    rw [Finset.sum_eq_single (⟨i.val % 1024 / 64, by omega⟩ : Fin 16)]
    · rw [show rarr m c (ix2 (⟨i.val % 1024 / 64, by omega⟩ : Fin 16) (⟨i.val % 1024, Nat.mod_lt _ (by decide)⟩ : Fin 1024)) = _ from HostPre.V_onehot m c _ _,
        if_pos rfl, mul_one]
      show V m c main_v1 (ix2 _ _) = _
      rw [HostPre.V_am m c ⟨i.val / 1024 * 16 + i.val % 1024 / 64, by omega⟩ ⟨o.val, hcond.2.1⟩]
      refine congrArg _ ?_
      funext d
      apply Fin.ext
      match d with
      | ⟨0, _⟩ => rfl
      | ⟨1, _⟩ => show i.val / 1024 * 16 + i.val % 1024 / 64 = i.val / 64; omega
    · intro bb _ hne
      rw [show rarr m c (ix2 bb (⟨i.val % 1024, Nat.mod_lt _ (by decide)⟩ : Fin 1024)) = _ from HostPre.V_onehot m c bb _,
        if_neg (fun h => hne (Fin.ext h.symm)), mul_zero]
    · intro h
      exact absurd (Finset.mem_univ _) h
  rw [ex, ec, es]
  rfl

/-- So, on codes in range, the kernel program's result is the specification's `G` of the four arguments. -/
theorem out3_eq (c : Dev nD) (hc : ∀ J, Cert.Spec.InRange (argC m c J)) :
    out3 m c = Cert.Spec.G (argX m c) (argC m c) (argA m c) (argB m c) := by
  funext j
  obtain ⟨b, s, o, rfl⟩ : ∃ (b : Fin 2) (s : Fin 2048) (o : Fin 4096), j = ix3 b s o := ⟨j 0, j 1, j 2, eq_ix3 j⟩
  have hb := b.isLt
  have hs := s.isLt
  have ho := o.isLt
  unfold out3
  rw [shapeCast_apply (out2 m c) shapeCasts_S4096x4096_S2x2048x4096 (ix3 b s o) (ix2 ⟨b.val * 2048 + s.val, by omega⟩ o)
    (by rw [Shape.rowMajor_val_two, Shape.rowMajor_val_three]; rfl)]
  unfold out2
  show Cert.Spec.squash ((∑ i ∈ Finset.range 4096, term m c (b.val * 2048 + s.val) o.val i) + V m c main_v2 (ix2 (0 : Fin 1) o))
    = Cert.Spec.squash ((∑ i : Fin 4096, argX m c (ix3 b s i) * Cert.Spec.weight (argC m c) (argA m c) o i) + argB m c (ix1 o))
  rw [HostPre.V_bias m c 0 o, ← Fin.sum_univ_eq_sum_range (fun i => term m c (b.val * 2048 + s.val) o.val i) 4096]
  exact congrArg (fun S => Cert.Spec.squash (S + argB m c (ix1 o))) (Finset.sum_congr rfl fun i _ => term_eq m c hc b s o i)

end Cert.KernelIdeal.Body
end
-- ==== Proof.RefRun.lean ====
/-
  The reference program read back as a function of its four arguments.

  Its @main, with the two outlined functions substituted at their calls, is one straight line of 36 host
  operations.  Every weakly fair execution of that line terminates with the result buffer holding the operations'
  composed pure term of the launch contents of the arguments, the arguments unchanged.  The composed term is
  written here as a few named stages (the normalised index, the gathered level, the block scale laid out over the
  weight's columns, the dequantized weight, the dense product plus bias, and the three selects that replace a
  non-number by zero), so that its value can be read stage by stage.
-/
import proofs.«430506_j87574383165510_1_alg».proof.Proof.Gen.ReferenceIdeal
import Idealize.ShloMosaic.Lib.StableHlo.Run
import Idealize.ShloMosaic.PureOps.Ideal

noncomputable section

open Idealize.ShloMosaic Idealize.ShloMosaic.TcCoe Idealize.SL.Sem

namespace Cert.RefSide

open Cert.ReferenceIdeal Cert.ReferenceIdeal.Gen Idealize.ShloMosaic.StableHlo

/-! ## The stages of the composed term -/

/-- The sixteen levels as a rank-1 array: the literal table read at an index's row-major position. -/
def table : FVec Ideal S16 .f32 := fun i => FloatOps.ofBits .f32 (lit0 (S16.rowMajor i))

/-- The index normalisation: a negative code is moved up by sixteen, any other code is kept. -/
def normIdx (codes : IVec S4096x4096 32) : IVec S4096x4096 32 :=
  select (cmpi .slt codes (broadcastInDim S4096x4096 ![] bcast_S_S4096x4096 (constantI S_ 32 0#32)))
    (addi codes (broadcastInDim S4096x4096 ![] bcast_S_S4096x4096 (constantI S_ 32 16#32))) codes

/-- The level of every code: the table gathered at the normalised indices. -/
def levels (codes : IVec S4096x4096 32) : FVec Ideal S4096x4096 .f32 :=
  Host.gather gather_S16_S4096x4096x1_S4096x4096_n_0_n_n_0_2_1 table
    (broadcastInDim S4096x4096x1 ![0, 1] bcast_S4096x4096_S4096x4096x1_0_1 (normIdx codes))

/-- The block scales laid out over the weight's columns: each scale repeated along a new axis of 64, the last two
    axes then merged. -/
def scales (am : FVec Ideal S4096x64 .f32) : FVec Ideal S4096x4096 .f32 :=
  shapeCast S4096x4096 (broadcastInDim S4096x64x64 ![0, 1] bcast_S4096x64_S4096x64x64_0_1 am)
    shapeCasts_S4096x64x64_S4096x4096

/-- The dequantized weight. -/
def weights (codes : IVec S4096x4096 32) (am : FVec Ideal S4096x64 .f32) : FVec Ideal S4096x4096 .f32 :=
  mulf (levels codes) (scales am)

/-- The bias laid out over the result. -/
def biasB (bias : FVec Ideal S4096 .f32) : FVec Ideal S2x2048x4096 .f32 :=
  broadcastInDim S2x2048x4096 ![0, 1, 2] bcast_S1x1x4096_S2x2048x4096_0_1_2
    (broadcastInDim S1x1x4096 ![2] bcast_S4096_S1x1x4096_2 bias)

/-- The dense layer before non-numbers are replaced. -/
def linear (x : FVec Ideal S2x2048x4096 .f32) (codes : IVec S4096x4096 32) (am : FVec Ideal S4096x64 .f32)
    (bias : FVec Ideal S4096 .f32) : FVec Ideal S2x2048x4096 .f32 :=
  addf (Host.dotGeneral dot_S2x2048x4096_S4096x4096_S2x2048x4096_2_1_01_0_n_n none x (weights codes am)) (biasB bias)

/-- A scalar word laid out over the result. -/
def splat (w : BitVec 32) : FVec Ideal S2x2048x4096 .f32 :=
  broadcastInDim S2x2048x4096 ![] bcast_S_S2x2048x4096 (constant S_ .f32 w)

/-- First select: where a value differs from itself, the zero word's value. -/
def clean₁ (v : FVec Ideal S2x2048x4096 .f32) : FVec Ideal S2x2048x4096 .f32 :=
  select (cmpf .une v v) (splat 0x00000000#32) v

/-- Second select: where a value equals the word 0x7F800000's, the zero word's value. -/
def clean₂ (v : FVec Ideal S2x2048x4096 .f32) : FVec Ideal S2x2048x4096 .f32 :=
  select (cmpf .oeq v (splat 0x7F800000#32)) (splat 0x00000000#32) v

/-- Third select: where a value equals the word 0xFF800000's, the zero word's value. -/
def clean₃ (v : FVec Ideal S2x2048x4096 .f32) : FVec Ideal S2x2048x4096 .f32 :=
  select (cmpf .oeq v (splat 0xFF800000#32)) (splat 0x00000000#32) v

/-- The reference's result as a function of its four arguments. -/
def refOut (x : FVec Ideal S2x2048x4096 .f32) (codes : IVec S4096x4096 32) (am : FVec Ideal S4096x64 .f32)
    (bias : FVec Ideal S4096 .f32) : FVec Ideal S2x2048x4096 .f32 :=
  clean₃ (clean₂ (clean₁ (linear x codes am bias)))

/-! ## The program as a list of operations -/

section Line

variable {F : FTy → Type} [FloatOps F]

/-- @main's operations in order, each outlined function's operations listed at its call over that call's buffers. -/
abbrev ops : List (HloOp τ sig (Elt F)) :=
  [ nullary main_cst (fun i => FloatOps.ofBits .f32 (lit0 (S16.rowMajor i))),
    nullary main_c (constantI S_ 32 0#32),
    unary main_c main_v0 (broadcastInDim S4096x4096 ![] bcast_S_S4096x4096 : (⟨S_, .i32⟩ : BufTy).Contents (Elt F) → (⟨S4096x4096, .i32⟩ : BufTy).Contents (Elt F)),
    binary main_arg1 main_v0 main_v1 (cmpi .slt : (⟨S4096x4096, .i32⟩ : BufTy).Contents (Elt F) → (⟨S4096x4096, .i32⟩ : BufTy).Contents (Elt F) → (⟨S4096x4096, .i1⟩ : BufTy).Contents (Elt F)),
    nullary main_c_0 (constantI S_ 32 16#32),
    unary main_c_0 main_v2 (broadcastInDim S4096x4096 ![] bcast_S_S4096x4096 : (⟨S_, .i32⟩ : BufTy).Contents (Elt F) → (⟨S4096x4096, .i32⟩ : BufTy).Contents (Elt F)),
    binary main_arg1 main_v2 main_v3 (addi : (⟨S4096x4096, .i32⟩ : BufTy).Contents (Elt F) → (⟨S4096x4096, .i32⟩ : BufTy).Contents (Elt F) → (⟨S4096x4096, .i32⟩ : BufTy).Contents (Elt F)),
    ternary main_v1 main_v3 main_arg1 main_v4 (select : (⟨S4096x4096, .i1⟩ : BufTy).Contents (Elt F) → (⟨S4096x4096, .i32⟩ : BufTy).Contents (Elt F) → (⟨S4096x4096, .i32⟩ : BufTy).Contents (Elt F) → (⟨S4096x4096, .i32⟩ : BufTy).Contents (Elt F)),
    unary main_v4 main_v5 (broadcastInDim S4096x4096x1 ![0, 1] bcast_S4096x4096_S4096x4096x1_0_1 : (⟨S4096x4096, .i32⟩ : BufTy).Contents (Elt F) → (⟨S4096x4096x1, .i32⟩ : BufTy).Contents (Elt F)),
    binary main_cst main_v5 main_v6 ((fun x i => Host.gather gather_S16_S4096x4096x1_S4096x4096_n_0_n_n_0_2_1 x i) : (⟨S16, .f32⟩ : BufTy).Contents (Elt F) → (⟨S4096x4096x1, .i32⟩ : BufTy).Contents (Elt F) → (⟨S4096x4096, .f32⟩ : BufTy).Contents (Elt F)),
    unary main_arg2 main_v7 (broadcastInDim S4096x64x64 ![0, 1] bcast_S4096x64_S4096x64x64_0_1 : (⟨S4096x64, .f32⟩ : BufTy).Contents (Elt F) → (⟨S4096x64x64, .f32⟩ : BufTy).Contents (Elt F)),
    reshape main_v7 main_v8 rfl shapeCasts_S4096x64x64_S4096x4096,
    binary main_v6 main_v8 main_v9 (mulf : (⟨S4096x4096, .f32⟩ : BufTy).Contents (Elt F) → (⟨S4096x4096, .f32⟩ : BufTy).Contents (Elt F) → (⟨S4096x4096, .f32⟩ : BufTy).Contents (Elt F)),
    binary main_arg0 main_v9 main_v10 ((fun l r => Host.dotGeneral dot_S2x2048x4096_S4096x4096_S2x2048x4096_2_1_01_0_n_n none l r) : (⟨S2x2048x4096, .f32⟩ : BufTy).Contents (Elt F) → (⟨S4096x4096, .f32⟩ : BufTy).Contents (Elt F) → (⟨S2x2048x4096, .f32⟩ : BufTy).Contents (Elt F)),
    unary main_arg3 main_v11 (broadcastInDim S1x1x4096 ![2] bcast_S4096_S1x1x4096_2 : (⟨S4096, .f32⟩ : BufTy).Contents (Elt F) → (⟨S1x1x4096, .f32⟩ : BufTy).Contents (Elt F)),
    unary main_v11 main_v12 (broadcastInDim S2x2048x4096 ![0, 1, 2] bcast_S1x1x4096_S2x2048x4096_0_1_2 : (⟨S1x1x4096, .f32⟩ : BufTy).Contents (Elt F) → (⟨S2x2048x4096, .f32⟩ : BufTy).Contents (Elt F)),
    binary main_v10 main_v12 main_v13 (addf : (⟨S2x2048x4096, .f32⟩ : BufTy).Contents (Elt F) → (⟨S2x2048x4096, .f32⟩ : BufTy).Contents (Elt F) → (⟨S2x2048x4096, .f32⟩ : BufTy).Contents (Elt F)),
    nullary main_cst_1 (constant S_ .f32 0x00000000#32),
    nullary main_cst_2 (constant S_ .f32 0x00000000#32),
    nullary main_cst_3 (constant S_ .f32 0x00000000#32),
    TRef.binary (.of main_v13) (.of main_v13) main_call0.v0 (cmpf .une),
    TRef.unary (.of main_cst_1) main_call0.v1 id,
    TRef.unary main_call0.v1 main_call0.call0.v0 (broadcastInDim S2x2048x4096 ![] bcast_S_S2x2048x4096),
    TRef.ternary main_call0.v0 main_call0.call0.v0 (.of main_v13) main_call0.call0.v1 select,
    TRef.nullary main_call0.cst (constant S_ .f32 0x7F800000#32),
    TRef.unary main_call0.cst main_call0.v3 (broadcastInDim S2x2048x4096 ![] bcast_S_S2x2048x4096),
    TRef.binary main_call0.call0.v1 main_call0.v3 main_call0.v4 (cmpf .oeq),
    TRef.unary (.of main_cst_3) main_call0.v5 id,
    TRef.unary main_call0.v5 main_call0.call1.v0 (broadcastInDim S2x2048x4096 ![] bcast_S_S2x2048x4096),
    TRef.ternary main_call0.v4 main_call0.call1.v0 main_call0.call0.v1 main_call0.call1.v1 select,
    TRef.nullary main_call0.cst_0 (constant S_ .f32 0xFF800000#32),
    TRef.unary main_call0.cst_0 main_call0.v7 (broadcastInDim S2x2048x4096 ![] bcast_S_S2x2048x4096),
    TRef.binary main_call0.call1.v1 main_call0.v7 main_call0.v8 (cmpf .oeq),
    TRef.unary (.of main_cst_2) main_call0.v9 id,
    TRef.unary main_call0.v9 main_call0.call2.v0 (broadcastInDim S2x2048x4096 ![] bcast_S_S2x2048x4096),
    TRef.ternary main_call0.v8 main_call0.call2.v0 main_call0.call1.v1 main_call0.call2.v1 select ]

-- thirty-six binds re-associated
set_option maxRecDepth 4096 in
/-- @main is that straight line: the two functions' definitions unfolded at their calls, both sides are one chain
    of steps once sequencing is re-associated. -/
theorem main_eq (c : Dev nD) : main (F := F) c = seq ops := by
  simp only [main, fn_nan_to_num.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., reshape_bufs_sub ..,
    binary_bufs_sub .., binary_bufs_sub .., unary_bufs_sub .., unary_bufs_sub .., binary_bufs_sub .., nullary_bufs_sub ..,
    nullary_bufs_sub .., nullary_bufs_sub ..,
    binary_bufs_sub .., unary_bufs_sub .., unary_bufs_sub .., ternary_bufs_sub .., nullary_bufs_sub .., unary_bufs_sub ..,
    binary_bufs_sub .., unary_bufs_sub .., unary_bufs_sub .., ternary_bufs_sub .., nullary_bufs_sub .., unary_bufs_sub ..,
    binary_bufs_sub .., unary_bufs_sub .., unary_bufs_sub .., ternary_bufs_sub ..⟩

end Line

/-! ## The fold of the line at the result and at the arguments -/

attribute [local irreducible] Host.gather shapeCast broadcastInDim in
set_option maxRecDepth 16384 in
set_option maxHeartbeats 1000000 in
/-- The fold at the result buffer is the composed term: each operation's result decides whether the buffer read is the
    one it writes, and the typed references' transports are the identity at these literal references. -/
theorem out_eq (V : Valuation τ sig (Elt Ideal)) :
    after (ops (F := Ideal)) V (main_v14 : DevRef τ sig)
      = refOut (V (main_arg0 : DevRef τ sig)) (V (main_arg1 : DevRef τ sig)) (V (main_arg2 : DevRef τ sig))
          (V (main_arg3 : DevRef τ sig)) := by
  simp only [after_cons, after_nil]
  rfl

theorem arg0_eq (V : Valuation τ sig (Elt Ideal)) :
    after (ops (F := Ideal)) V (main_arg0 : DevRef τ sig) = V (main_arg0 : DevRef τ sig) := by
  simp only [after_cons, after_nil]
  rfl

theorem arg1_eq (V : Valuation τ sig (Elt Ideal)) :
    after (ops (F := Ideal)) V (main_arg1 : DevRef τ sig) = V (main_arg1 : DevRef τ sig) := by
  simp only [after_cons, after_nil]
  rfl

theorem arg2_eq (V : Valuation τ sig (Elt Ideal)) :
    after (ops (F := Ideal)) V (main_arg2 : DevRef τ sig) = V (main_arg2 : DevRef τ sig) := by
  simp only [after_cons, after_nil]
  rfl

theorem arg3_eq (V : Valuation τ sig (Elt Ideal)) :
    after (ops (F := Ideal)) V (main_arg3 : DevRef τ sig) = V (main_arg3 : DevRef τ sig) := by
  simp only [after_cons, after_nil]
  rfl

/-! ## The run -/

/-- On every device, from any memory with zero counters: every weakly fair execution of @main terminates with the
    result buffer at the composed term of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14)
        = refOut (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v14).trans (out_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.RefSide

end
-- ==== Proof.RefValue.lean ====
/-
  The reference's composed term is the specification, index by index, where every code lies in the range of the
  sixteen levels.

  Stage by stage: a code that is not negative is its own normalised index; the gather from the sixteen-entry table
  reads the table at the code clamped into [0, 15], and the table is the specification's list of words, so the gathered
  value is the code's level; the scale array, each scale repeated 64 times along a new axis and the last two axes
  merged, reads at column i the scale of block i / 64; the dense product at (b, s, o) is the sum over the 4096 input
  columns of the activation times the weight; the bias is read at the output column; and the three selects replace
  exactly the two infinities by zero (an extended real never differs from itself).
-/
import proofs.«430506_j87574383165510_1_alg».proof.Proof.RefRun
import proofs.«430506_j87574383165510_1_alg».proof.Proof.Spec
import Idealize.ShloMosaic.Lib.ValueIdx
import Idealize.ShloMosaic.Lib.Pipeline.Value
import Idealize.ShloMosaic.PureOps.Ideal.Laws

noncomputable section

open Idealize.ShloMosaic Idealize.ShloMosaic.ValueIdx
open scoped BigOperators

namespace Cert.RefSide

open Cert.ReferenceIdeal Cert.ReferenceIdeal.Gen

/-! ## The index normalisation -/

/-- A code that is not negative is kept. -/
theorem normIdx_apply (codes : IVec S4096x4096 32) (j : S4096x4096.Idx) (h : 0 ≤ (codes j).toInt) :
    normIdx codes j = codes j := by
  unfold normIdx
  rw [select_apply]
  have hc : cmpi .slt codes (broadcastInDim S4096x4096 ![] bcast_S_S4096x4096 (constantI S_ 32 0#32)) j = 0#1 := by
    show BitVec.ofBool ((codes j).slt 0#32) = 0#1
    have : (codes j).slt 0#32 = false := by
      rw [BitVec.slt_eq_decide]
      simpa using h
    rw [this]; rfl
  rw [hc, select_zero]

/-! ## The gathered level -/

/-- The printed gather record is the one that takes a flat table at a rank-2 array of indices. -/
theorem gatherDims_eq : gather_S16_S4096x4096x1_S4096x4096_n_0_n_n_0_2_1
    = takeDims 16 4096 4096 gather_S16_S4096x4096x1_S4096x4096_n_0_n_n_0_2_1_wf := rfl

/-- The printed table and the specification's list of words are the same sixteen words. -/
theorem lit0_eq_word (n : Fin 16) : lit0 n = Cert.Spec.word n := by
  fin_cases n <;> rfl

/-- The table array at entry n is the level word n. -/
theorem table_apply (n : Fin 16) : table (ix1 n) = Ideal.ofBits .f32 (Cert.Spec.word n) := by
  unfold table
  have hn : (S16.rowMajor (ix1 n) : Fin 16) = n := Fin.ext (Shape.rowMajor_val_one (d := ![16]) (ix1 n))
  rw [hn, lit0_eq_word]
  rfl

/-- The index array with its trailing unit axis reads the normalised index. -/
theorem idx3_apply (v : IVec S4096x4096 32) (j : S4096x4096.Idx) :
    broadcastInDim S4096x4096x1 ![0, 1] bcast_S4096x4096_S4096x4096x1_0_1 v (takeIdx j) = v j :=
  broadcastInDim_apply _ _ _ _ j fun a => match a with
    | ⟨0, _⟩ => rfl
    | ⟨1, _⟩ => rfl

/-- The table read at a word clamped into [0, 15] is that word's level. -/
theorem table_clamp (c c' : BitVec 32) (hcc : c = c') (hp : min c.toInt.toNat (16 - 1) < 16) :
    table (ix1 ⟨min c.toInt.toNat (16 - 1), hp⟩) = Cert.Spec.level c' := by
  subst hcc
  rw [table_apply]
  rfl

/-- The gathered value of a code that is not negative is the code's level. -/
theorem levels_apply (codes : IVec S4096x4096 32) (j : S4096x4096.Idx) (h : 0 ≤ (codes j).toInt) :
    levels codes j = Cert.Spec.level (codes j) := by
  unfold levels
  rw [gatherDims_eq, gather_take_apply (by decide)]
  exact table_clamp _ _ ((idx3_apply _ _).trans (normIdx_apply codes j h)) _

/-! ## The scales over the weight's columns -/

/-- Column i of the laid-out scales is the scale of block i / 64. -/
theorem scales_apply (am : FVec Ideal S4096x64 .f32) (o i : Fin 4096) :
    scales am (ix2 o i) = am (ix2 o ⟨i.val / 64, by have := i.isLt; omega⟩) := by
  unfold scales
  have hq : i.val / 64 < 64 := by have := i.isLt; omega
  have hr : i.val % 64 < 64 := Nat.mod_lt _ (by decide)
  rw [shapeCast_apply _ _ (ix2 o i) (ix3 o ⟨i.val / 64, hq⟩ ⟨i.val % 64, hr⟩) (by
    rw [Shape.rowMajor_val_three, Shape.rowMajor_val_two]
    show (o.val * 64 + i.val / 64) * 64 + i.val % 64 = o.val * 4096 + i.val
    omega)]
  exact broadcastInDim_apply _ _ _ _ _ fun a => match a with
    | ⟨0, _⟩ => rfl
    | ⟨1, _⟩ => rfl

/-! ## The dequantized weight -/

theorem weights_apply (codes : IVec S4096x4096 32) (am : FVec Ideal S4096x64 .f32) (o i : Fin 4096)
    (h : 0 ≤ (codes (ix2 o i)).toInt) :
    weights codes am (ix2 o i) = Cert.Spec.weight codes am o i := by
  unfold weights Cert.Spec.weight
  rw [mulf_apply, levels_apply codes _ h, scales_apply]

/-! ## The dense product -/

/-- The product's dimension numbers: the activations' last axis against the weight's last axis. -/
abbrev D : DotDims S2x2048x4096 S4096x4096 S2x2048x4096 := dot_S2x2048x4096_S4096x4096_S2x2048x4096_2_1_01_0_n_n

theorem lhs_0 (j : S2x2048x4096.Idx) (k : D.contr.Idx) : (D.lhsIdx j k 0).val = (j 0).val := rfl
theorem lhs_1 (j : S2x2048x4096.Idx) (k : D.contr.Idx) : (D.lhsIdx j k 1).val = (j 1).val := rfl
theorem lhs_2 (j : S2x2048x4096.Idx) (k : D.contr.Idx) : (D.lhsIdx j k 2).val = (k ⟨0, by decide⟩).val :=
  DotDims.lhsIdx_val_of_single D rfl j k
theorem rhs_0 (j : S2x2048x4096.Idx) (k : D.contr.Idx) : (D.rhsIdx j k 0).val = (j 2).val := rfl
theorem rhs_1 (j : S2x2048x4096.Idx) (k : D.contr.Idx) : (D.rhsIdx j k 1).val = (k ⟨0, by decide⟩).val :=
  DotDims.rhsIdx_val_of_single D rfl j k

/-- The dense product at (b, s, o): the sum over the input columns of activation times weight. -/
theorem dot_apply (l : FVec Ideal S2x2048x4096 .f32) (r : FVec Ideal S4096x4096 .f32) (b : Fin 2) (s : Fin 2048)
    (o : Fin 4096) :
    Host.dotGeneral (F := Ideal) D none l r (ix3 b s o) = ∑ i : Fin 4096, l (ix3 b s i) * r (ix2 o i) := by
  simp only [Host.dotGeneral]
  rw [Ideal.dotGeneral_apply, ← Equiv.sum_comp (contrEquiv1 D 4096 rfl rfl).symm]
  refine Finset.sum_congr rfl fun i _ => ?_
  have hk := contrEquiv1_symm_val D 4096 rfl rfl i
  have hl : D.lhsIdx (ix3 b s o) ((contrEquiv1 D 4096 rfl rfl).symm i) = ix3 b s i :=
    funext fun a => Fin.ext (by
      match a with
      | ⟨0, _⟩ => exact lhs_0 _ _
      | ⟨1, _⟩ => exact lhs_1 _ _
      | ⟨2, _⟩ => exact (lhs_2 _ _).trans hk)
  have hr : D.rhsIdx (ix3 b s o) ((contrEquiv1 D 4096 rfl rfl).symm i) = ix2 o i :=
    funext fun a => Fin.ext (by
      match a with
      | ⟨0, _⟩ => exact rhs_0 _ _
      | ⟨1, _⟩ => exact (rhs_1 _ _).trans hk)
  rw [hl, hr]

/-! ## The bias -/

theorem biasB_apply (bias : FVec Ideal S4096 .f32) (b : Fin 2) (s : Fin 2048) (o : Fin 4096) :
    biasB bias (ix3 b s o) = bias (ix1 o) := by
  unfold biasB
  rw [broadcastInDim_apply _ _ _ (ix3 b s o) (ix3 (0 : Fin 1) (0 : Fin 1) o) fun a => match a with
    | ⟨0, _⟩ => rfl
    | ⟨1, _⟩ => rfl
    | ⟨2, _⟩ => rfl]
  exact broadcastInDim_apply _ _ _ _ _ fun a => match a with
    | ⟨0, _⟩ => rfl

/-! ## The three selects -/

theorem splat_apply (w : BitVec 32) (j : S2x2048x4096.Idx) : splat w j = Ideal.ofBits .f32 w := rfl

/-- The word 0x7F800000 is the upper infinity. -/
theorem ofBits_posInf : Ideal.ofBits .f32 0x7F800000#32 = ⊤ := by simp [Ideal.ofBits, Ideal.ieee]

/-- The word 0xFF800000 is the lower infinity. -/
theorem ofBits_negInf : Ideal.ofBits .f32 0xFF800000#32 = ⊥ := by simp [Ideal.ofBits, Ideal.ieee]

/-- No extended real differs from itself: the first select keeps its operand. -/
theorem clean₁_apply (v : FVec Ideal S2x2048x4096 .f32) (j : S2x2048x4096.Idx) : clean₁ v j = v j := by
  unfold clean₁
  rw [select_apply, cmpf_apply, Ideal.cmpf_def]
  have : Ideal.cmp .une (v j) (v j) = 0#1 := by simp [Ideal.cmp]
  rw [this, select_zero]

/-- The second select replaces the upper infinity by zero. -/
theorem clean₂_apply (v : FVec Ideal S2x2048x4096 .f32) (j : S2x2048x4096.Idx) :
    clean₂ v j = if v j = ⊤ then 0 else v j := by
  unfold clean₂
  rw [select_apply, cmpf_apply, Ideal.cmpf_def, splat_apply, splat_apply, ofBits_posInf, Ideal.ofBits_zero_f32]
  by_cases h : v j = ⊤
  · rw [if_pos h]
    have : Ideal.cmp .oeq (v j) ⊤ = 1#1 := by simp [Ideal.cmp, h]
    rw [this, select_one]
  · rw [if_neg h]
    have : Ideal.cmp .oeq (v j) ⊤ = 0#1 := by simp [Ideal.cmp, h]
    rw [this, select_zero]

/-- The third select replaces the lower infinity by zero. -/
theorem clean₃_apply (v : FVec Ideal S2x2048x4096 .f32) (j : S2x2048x4096.Idx) :
    clean₃ v j = if v j = ⊥ then 0 else v j := by
  unfold clean₃
  rw [select_apply, cmpf_apply, Ideal.cmpf_def, splat_apply, splat_apply, ofBits_negInf, Ideal.ofBits_zero_f32]
  by_cases h : v j = ⊥
  · rw [if_pos h]
    have : Ideal.cmp .oeq (v j) ⊥ = 1#1 := by simp [Ideal.cmp, h]
    rw [this, select_one]
  · rw [if_neg h]
    have : Ideal.cmp .oeq (v j) ⊥ = 0#1 := by simp [Ideal.cmp, h]
    rw [this, select_zero]

/-- The three selects together replace exactly the two infinities by zero. -/
theorem clean_apply (v : FVec Ideal S2x2048x4096 .f32) (j : S2x2048x4096.Idx) :
    clean₃ (clean₂ (clean₁ v)) j = Cert.Spec.squash (v j) := by
  rw [clean₃_apply, clean₂_apply, clean₁_apply]
  unfold Cert.Spec.squash
  by_cases h : v j = ⊤
  · rw [if_pos h, if_pos h, if_neg (by simp)]
  · rw [if_neg h, if_neg h]

/-! ## The whole -/

/-- The dense layer before the selects, at (b, s, o). -/
theorem linear_apply (x : FVec Ideal S2x2048x4096 .f32) (codes : IVec S4096x4096 32) (am : FVec Ideal S4096x64 .f32)
    (bias : FVec Ideal S4096 .f32) (hc : ∀ i, Cert.Spec.InRange (codes i)) (b : Fin 2) (s : Fin 2048) (o : Fin 4096) :
    linear x codes am bias (ix3 b s o)
      = (∑ i : Fin 4096, x (ix3 b s i) * Cert.Spec.weight codes am o i) + bias (ix1 o) := by
  unfold linear
  rw [addf_apply, dot_apply, biasB_apply]
  have hw : ∀ i : Fin 4096, weights codes am (ix2 o i) = Cert.Spec.weight codes am o i :=
    fun i => weights_apply codes am o i (hc _).1
  simp only [hw]

theorem refOut_eq (x : FVec Ideal S2x2048x4096 .f32) (codes : IVec S4096x4096 32) (am : FVec Ideal S4096x64 .f32)
    (bias : FVec Ideal S4096 .f32) (hc : ∀ i, Cert.Spec.InRange (codes i)) :
    refOut x codes am bias = Cert.Spec.G x codes am bias := by
  funext j
  obtain ⟨b, s, o, rfl⟩ : ∃ (b : Fin 2) (s : Fin 2048) (o : Fin 4096), j = ix3 b s o := ⟨j 0, j 1, j 2, eq_ix3 j⟩
  have hG : Cert.Spec.G x codes am bias (ix3 b s o) = Cert.Spec.entry x codes am bias b s o := rfl
  rw [hG]
  unfold refOut Cert.Spec.entry
  rw [clean_apply, linear_apply x codes am bias hc]

end Cert.RefSide

end
-- ==== Proof.PreCodes.lean ====
/-
  The precondition, decoded at one code.

  The printed predicate is a conjunction of four `all`-reductions: three say that every float input is finite, and the
  fourth says that every entry `c` of the code table satisfies `0 ≤ c` and `c < 16` as signed 32-bit integers. Each
  conjunction is a bitwise `and` of one-bit words, which is 1 exactly when both sides are 1; an `and`-reduction over
  every axis that comes out 1 had a 1 at every element; and a signed comparison word is 1 exactly when the integers the
  two words denote are so ordered. The comparands are the scalars 0 and 16 broadcast to the table's shape, which read
  0 and 16 at every index. So from "the predicate is all ones" follows, for each index `i`, `0 ≤ (codes i).toInt` and
  `(codes i).toInt < 16`. Nothing here depends on the float model `F`: the float conjuncts are only split off and dropped.
-/
import proofs.«430506_j87574383165510_1_alg».proof.Proof.Gen.Pre_finite_inputs
import proofs.«430506_j87574383165510_1_alg».proof.Proof.Spec
import Idealize.ShloMosaic.Lib.ReduceAll

noncomputable section

open Idealize.ShloMosaic Idealize.ShloMosaic.ValueIdx

namespace Cert.PreDecode
open Cert.Pre_finite_inputs

/-- The rank-0 shape has exactly one index. -/
instance subsingleton_scalarIdx : Subsingleton S_.Idx := ⟨fun a b => funext fun d => d.elim0⟩

/-- A word that is signed-at-least the zero word and signed-below the word 16 denotes an integer in `[0, 16)`. -/
theorem inRange_of_cmp (c : BitVec 32) (h0 : IntOp.cmpi .sge c (0#32) = 1#1) (h16 : IntOp.cmpi .slt c (16#32) = 1#1) :
    Cert.Spec.InRange c := by
  have z : (0#32 : BitVec 32).toInt = 0 := by decide
  have s : (16#32 : BitVec 32).toInt = 16 := by decide
  have a := IntOp.cmpi_sge.1 h0
  have b := IntOp.cmpi_slt.1 h16
  rw [z] at a
  rw [s] at b
  exact ⟨a, b⟩

theorem codes_inRange {F : FTy → Type} [FloatOps F] (x : FVec F S2x2048x4096 .f32) (codes : IVec S4096x4096 32)
    (am : FVec F S4096x64 .f32) (bias : FVec F S4096 .f32)
    (h : Cert.Pre_finite_inputs.fn (F := F) x codes am bias = fun _ => 1#1) (i : S4096x4096.Idx) :
    Cert.Spec.InRange (codes i) := by
  -- the predicate's one word is 1
  have e := congrFun h ValueIdx.ix0
  dsimp only [fn, fn_part1] at e
  -- the last conjunction: the float conjuncts on the left, the reduction over the code table on the right
  obtain ⟨-, hall⟩ := IntOp.andi_eq_one.1 e
  -- the reduction over every axis is 1, so the reduced array is 1 at i
  have hi := Host.reduce_andi_all _ _ _ _ _ hall i
  -- at i it is the conjunction of the two comparisons
  obtain ⟨h0, h16⟩ := IntOp.andi_eq_one.1 hi
  exact inRange_of_cmp (codes i) h0 h16

end Cert.PreDecode

end
-- ==== Proof.lean ====
/-
  A 4-bit quantized linear layer: each weight entry is one of sixteen fixed quantile levels, chosen by an integer code,
  times the scale of its block of 64 input columns; the layer multiplies the activations by that weight, adds a bias per
  output column and replaces an infinite entry by zero.

  The kernel computes the product tile by tile — 1024 rows by 512 columns of the output, accumulating over four tiles of
  1024 input columns — selecting the level by fifteen equality tests on the code and expanding the scales of a tile with a
  16 × 1024 zero-one block-selection matrix; the reference gathers the levels from a table, repeats the scales and takes
  one product over all 4096 input columns. Over the extended reals the two agree entry by entry whenever every code lies
  in [0, 16): the tests then pick exactly the table's entry, the selection matrix picks exactly the scale of block i / 64,
  and the four partial sums are one sum split at multiples of 1024 (addition of extended reals is associative and
  commutative, so no finiteness is used). Both apply the same replacement of infinities last.

  The frames of the two kernel programs are the generated ones; the reference's run, the reading of both programs' results
  as the specification's function (Proof/Spec.lean) and the decoding of the code range out of the precondition are
  Proof/RefRun.lean, Proof/RefValue.lean, Proof/KernelRun.lean (over Pieces, Payload, Accum, Final, HostPre) and
  Proof/PreCodes.lean.
-/
import proofs.«430506_j87574383165510_1_alg».proof.Defs
import proofs.«430506_j87574383165510_1_alg».proof.Proof.Gen.Kernel
import proofs.«430506_j87574383165510_1_alg».proof.Proof.Gen.Kernel.Skeleton
import proofs.«430506_j87574383165510_1_alg».proof.Proof.Gen.Kernel.Launch
import proofs.«430506_j87574383165510_1_alg».proof.Proof.Gen.Kernel.Points
import proofs.«430506_j87574383165510_1_alg».proof.Proof.Gen.Kernel.Frame
import proofs.«430506_j87574383165510_1_alg».proof.Proof.Gen.KernelIdeal
import proofs.«430506_j87574383165510_1_alg».proof.Proof.Gen.KernelIdeal.Skeleton
import proofs.«430506_j87574383165510_1_alg».proof.Proof.Gen.KernelIdeal.Launch
import proofs.«430506_j87574383165510_1_alg».proof.Proof.Gen.KernelIdeal.Points
import proofs.«430506_j87574383165510_1_alg».proof.Proof.Gen.KernelIdeal.Frame
import proofs.«430506_j87574383165510_1_alg».proof.Proof.Gen.ReferenceIdeal
import proofs.«430506_j87574383165510_1_alg».proof.Proof.Gen.Pre_finite_inputs
import proofs.«430506_j87574383165510_1_alg».proof.Proof.KernelRun
import proofs.«430506_j87574383165510_1_alg».proof.Proof.RefValue
import proofs.«430506_j87574383165510_1_alg».proof.Proof.PreCodes
import Idealize.ShloMosaic.Adequacy
import Idealize.ShloMosaic.Init

noncomputable section

namespace Cert.Proof

open Idealize.ShloMosaic Idealize.SL.Sem

/-- The reference program runs and leaves its arguments unchanged: its run with the result dropped. -/
theorem frame_reference : Cert.frame_ReferenceIdeal := fun m ρ _ =>
  (θ_run Cert.ReferenceIdeal.defs _ _).mono (fun _ h c => (h c).2) (Cert.RefSide.run m ρ)

/-- From memories that agree on the four arguments and satisfy the precondition, both programs end with the
    specification's array: the kernel program by its tiled accumulation, the reference by its one product; the precondition
    supplies the range of the codes, which is all either reading uses. -/
theorem algebraic : Cert.algebraic_KernelIdeal_ReferenceIdeal := by
  intro m ρ m' ρ' hpre hagree
  refine ⟨fun c => Cert.KernelIdeal.Body.out3 m c, Cert.KernelIdeal.Body.run m ρ, ?_⟩
  refine (θ_run Cert.ReferenceIdeal.defs _ _).mono (fun _ h c => ⟨(h c).1.trans ?_, (h c).2⟩) (Cert.RefSide.run m' ρ')
  have hc : ∀ J, Cert.Spec.InRange (m ((c.tc : Thread Cert.KernelIdeal.nD Cert.KernelIdeal.τ).loc Cert.KernelIdeal.main_arg1) J) :=
    fun J => Cert.PreDecode.codes_inRange _ _ _ _ (hpre c) J
  rw [(hagree c).1, (hagree c).2.1, (hagree c).2.2.1, (hagree c).2.2.2, Cert.RefSide.refOut_eq _ _ _ _ hc]
  exact (Cert.KernelIdeal.Body.out3_eq m c hc).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
